-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x2 .f32) (main_arg6 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg5
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S1x2 : Shape := ⟨2, ![1, 2]⟩
abbrev S5000x128 : Shape := ⟨2, ![5000, 128]⟩
abbrev S5000x1 : Shape := ⟨2, ![5000, 1]⟩
abbrev S850000x128 : Shape := ⟨2, ![850000, 128]⟩
abbrev S50000x2 : Shape := ⟨2, ![50000, 2]⟩
abbrev S5000x2 : Shape := ⟨2, ![5000, 2]⟩
abbrev S850000x2 : Shape := ⟨2, ![850000, 2]⟩
abbrev S64x2 : Shape := ⟨2, ![64, 2]⟩
abbrev S5000x64 : Shape := ⟨2, ![5000, 64]⟩
abbrev S64 : Shape := ⟨1, ![64]⟩
abbrev S64x1 : Shape := ⟨2, ![64, 1]⟩

abbrev nBuf : Space → Nat
  | .hbm => 66
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S1x128, .f32⟩
  | .hbm, ⟨23, _⟩ => ⟨S1x2, .f32⟩
  | .hbm, ⟨24, _⟩ => ⟨S50000x1, .i32⟩
  | .hbm, ⟨25, _⟩ => ⟨S50000x128, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000x128, .f32⟩
  | .hbm, ⟨35, _⟩ => ⟨S_, .f32⟩
  | .hbm, ⟨36, _⟩ => ⟨S50000x128, .f32⟩
  | .hbm, ⟨37, _⟩ => ⟨S850000x1, .i32⟩
  | .hbm, ⟨38, _⟩ => ⟨S50000x128, .f32⟩
  | .hbm, ⟨39, _⟩ => ⟨S50000x2, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x2, .f32⟩
  | .hbm, ⟨49, _⟩ => ⟨S_, .f32⟩
  | .hbm, ⟨50, _⟩ => ⟨S50000x2, .f32⟩
  | .hbm, ⟨51, _⟩ => ⟨S850000x1, .i32⟩
  | .hbm, ⟨52, _⟩ => ⟨S50000x2, .f32⟩
  | .hbm, ⟨53, _⟩ => ⟨S64x2, .f32⟩
  | .hbm, ⟨54, _⟩ => ⟨S_, .f32⟩
  | .hbm, ⟨55, _⟩ => ⟨S50000, .f32⟩
  | .hbm, ⟨56, _⟩ => ⟨S_, .f32⟩
  | .hbm, ⟨57, _⟩ => ⟨S64, .f32⟩
  | .hbm, ⟨58, _⟩ => ⟨S50000x1, .i32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S64x2, .f32⟩
  | .hbm, ⟨65, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S5000x1, .f32⟩
  | .local _ .vmem, ⟨18, _⟩ => ⟨S5000x1, .f32⟩
  | .local _ .vmem, ⟨19, _⟩ => ⟨S1x2, .f32⟩
  | .local _ .vmem, ⟨20, _⟩ => ⟨S5000x1, .i32⟩
  | .local _ .vmem, ⟨21, _⟩ => ⟨S5000x1, .i32⟩
  | .local _ .vmem, ⟨22, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S50000x2 : S_.BroadcastsInDim S50000x2 (![] : Fin 0 → Fin S50000x2.rank)
  inb_S64x2_S64x2_0_0 : ∀ a, (![0, 0] : Fin 2 → Nat) a + S64x2.size a ≤ S64x2.size a
  h_S64x2 : 0 < S64x2.numel
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  iota_S5000x64_d1_w32 : S5000x64.Iotas .tc 32 [1]
  broadcasts_S5000x1_S5000x64 : S5000x1.Broadcasts S5000x64
  natLt_1_32 : 1 < 32
  shapeCasts_S64x2_S64x2 : S64x2.ShapeCasts S64x2
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  dot_S5000x64_S5000x2_S64x2_0_0_1_1_n_n_wf : DotDims.WF S5000x64 S5000x2 S64x2 [0] [0] [1] [1] [] []
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S50000x2.size a
  hwx1_4 : ∀ i : grid1.Coords, EltTy.bits .f32 = 32 ∨ (Rect.block (s := S50000x2) S5000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S50000x2.size a
  hwx2_0 : ∀ i : grid2.Coords, EltTy.bits .f32 = 32 ∨ (Rect.block (s := S50000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x2.size a ≤ S64x2.size a
  hwx2_4 : ∀ i : grid2.Coords, EltTy.bits .f32 = 32 ∨ (Rect.block (s := S64x2) S64x2.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def dot_S5000x64_S5000x2_S64x2_0_0_1_1_n_n : DotDims S5000x64 S5000x2 S64x2 where
  lhsContracting := [0]
  rhsContracting := [0]
  lhsNonContracting := [1]
  rhsNonContracting := [1]
  lhsBatch := []
  rhsBatch := []
  wf := dot_S5000x64_S5000x2_S64x2_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S64x2.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x2 : Shape := ⟨2, ![50000, 2]⟩
abbrev S850000x2 : Shape := ⟨2, ![850000, 2]⟩
abbrev S1x2 : Shape := ⟨2, ![1, 2]⟩
abbrev S64x2 : Shape := ⟨2, ![64, 2]⟩
abbrev S50000x1 : Shape := ⟨2, ![50000, 1]⟩
abbrev S64 : Shape := ⟨1, ![64]⟩
abbrev S64x1 : Shape := ⟨2, ![64, 1]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x2, .f32⟩
  | 6 => ⟨S2, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S50000x128, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x128, .f32⟩
  | 50 => ⟨S850000x1, .f32⟩
  | 51 => ⟨S850000x128, .f32⟩
  | 52 => ⟨S850000x128, .f32⟩
  | 53 => ⟨S_, .f32⟩
  | 54 => ⟨S50000x128, .f32⟩
  | 55 => ⟨S850000x1, .i32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000, .i32⟩
  | 64 => ⟨S1x800000, .i32⟩
  | 65 => ⟨S800000, .i32⟩
  | 66 => ⟨S850000, .i32⟩
  | 67 => ⟨S1x800000, .i32⟩
  | 68 => ⟨S800000, .i32⟩
  | 69 => ⟨S850000, .i32⟩
  | 70 => ⟨S_, .f32⟩
  | 71 => ⟨S850000, .f32⟩
  | 72 => ⟨S_, .f32⟩
  | 73 => ⟨S50000, .f32⟩
  | 74 => ⟨S850000x1, .i32⟩
  | 75 => ⟨S50000, .f32⟩
  | 76 => ⟨S50000, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S850000, .f32⟩
  | 96 => ⟨S50000x2, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x2, .f32⟩
  | 106 => ⟨S850000x1, .f32⟩
  | 107 => ⟨S850000x2, .f32⟩
  | 108 => ⟨S850000x2, .f32⟩
  | 109 => ⟨S_, .f32⟩
  | 110 => ⟨S50000x2, .f32⟩
  | 111 => ⟨S850000x1, .i32⟩
  | 112 => ⟨S50000x2, .f32⟩
  | 113 => ⟨S1x2, .f32⟩
  | 114 => ⟨S50000x2, .f32⟩
  | 115 => ⟨S50000x2, .f32⟩
  | 116 => ⟨S_, .f32⟩
  | 117 => ⟨S64x2, .f32⟩
  | 118 => ⟨S50000x1, .i32⟩
  | 119 => ⟨S64x2, .f32⟩
  | 120 => ⟨S_, .f32⟩
  | 121 => ⟨S50000, .f32⟩
  | 122 => ⟨S_, .f32⟩
  | 123 => ⟨S64, .f32⟩
  | 124 => ⟨S50000x1, .i32⟩
  | 125 => ⟨S64, .f32⟩
  | 126 => ⟨S_, .f32⟩
  | 127 => ⟨S64, .f32⟩
  | _ => ⟨S50000x128, .f32⟩

abbrev hbmTy0_1 (i : Nat) : BufTy := match i % 128 with
  | 0 => ⟨S64, .f32⟩
  | 1 => ⟨S64x1, .f32⟩
  | 2 => ⟨S64x2, .f32⟩
  | 3 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_13 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S64x2 : S_.BroadcastsInDim S64x2 (![] : Fin 0 → Fin S64x2.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  scatter_S64x2_S50000x1_S50000x2_1_0_0_1_wf : ScatterDims.WF S64x2 S50000x1 S50000x2 [1] [0] [0] 1
  scatter_S64_S50000x1_S50000_n_0_0_1_wf : ScatterDims.WF S64 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf
def scatter_S64x2_S50000x1_S50000x2_1_0_0_1 : ScatterDims S64x2 S50000x1 S50000x2 where
  updateWindowDims := [1]
  insertedWindowDims := [0]
  scatterDimsToOperandDims := [0]
  indexVectorDim := 1
  wf := scatter_S64x2_S50000x1_S50000x2_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelChain.lean ====
/-
  The host side of the three-kernel program, read through the run's boundary contents.

  Between the kernels the host gathers rows of a kernel's result by the edges' source words and adds them
  into the rows their destination words name; before the first kernel it counts each node's incoming
  edges and takes the inverse square root; after the last it divides each graph's sum by the graph's
  node count (at least one). Each array a kernel is entered with, and the program's result, is stated
  here as those host functions applied to the program's arguments and to what the kernels before left.
-/
import proofs.«420345_j67774583930931_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-! ## The host functions, by name -/

/-- The edges' source words: the first row of the edge list, then one self-loop per node. -/
def srcW (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' destination words: the second row of the edge list, then one self-loop per node. -/
def dstW (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The destination words as the column a scatter takes. -/
def dstCol (ei : IVec S2x800000 32) : IVec S850000x1 32 :=
  broadcastInDim S850000x1 ![0] bcast_S850000_S850000x1_0 (dstW ei)

/-- The source words, a negative one wrapped by the node count, as the column a gather takes. -/
def srcCol (ei : IVec S2x800000 32) : IVec S850000x1 32 :=
  broadcastInDim S850000x1 ![0] bcast_S850000_S850000x1_0
    (select (cmpi .slt (srcW ei) (broadcastInDim S850000 ![] bcast_S_S850000 (constantI S_ 32 0#32)))
      (addi (srcW ei) (broadcastInDim S850000 ![] bcast_S_S850000 (constantI S_ 32 50000#32))) (srcW ei))

/-- Each node's count of incoming edges. -/
def deg (ei : IVec S2x800000 32) : FVec F S50000 .f32 :=
  Host.scatterAdd scatter_S50000_S850000x1_S850000_n_0_0_1 (broadcastInDim S50000 ![] bcast_S_S50000 (constant S_ .f32 0x00000000#32)) (dstCol ei)
    (broadcastInDim S850000 ![] bcast_S_S850000 (constant S_ .f32 0x3F800000#32))

/-- Its inverse square root, as the column the kernels take. -/
def dinv2d (ei : IVec S2x800000 32) : FVec F S50000x1 .f32 :=
  shapeCast _ (Host.rsqrt (deg (F := F) ei)) shapeCasts_S50000_S50000x1

/-- Rows of a 128-column table gathered by source and added by destination. -/
def agg128 (y : FVec F S50000x128 .f32) (ei : IVec S2x800000 32) : FVec F S50000x128 .f32 :=
  Host.scatterAdd scatter_S50000x128_S850000x1_S850000x128_1_0_0_1 (broadcastInDim S50000x128 ![] bcast_S_S50000x128 (constant S_ .f32 0x00000000#32)) (dstCol ei)
    (Host.gather gather_S50000x128_S850000x1_S850000x128_1_0_n_n_0_1_1128 y (srcCol ei))

/-- Rows of a 2-column table gathered by source and added by destination. -/
def agg2 (y : FVec F S50000x2 .f32) (ei : IVec S2x800000 32) : FVec F S50000x2 .f32 :=
  Host.scatterAdd scatter_S50000x2_S850000x1_S850000x2_1_0_0_1 (broadcastInDim S50000x2 ![] bcast_S_S50000x2 (constant S_ .f32 0x00000000#32)) (dstCol ei)
    (Host.gather gather_S50000x2_S850000x1_S850000x2_1_0_n_n_0_1_12 y (srcCol ei))

/-- Each graph's node count, at least one, spread over the two columns. -/
def den (bt : IVec S50000 32) : FVec F S64x2 .f32 :=
  broadcastInDim S64x2 ![0, 1] bcast_S64x1_S64x2_0_1 (broadcastInDim S64x1 ![0] bcast_S64_S64x1_0
    (maximumf (Host.scatterAdd scatter_S64_S50000x1_S50000_n_0_0_1 (broadcastInDim S64 ![] bcast_S_S64 (constant S_ .f32 0x00000000#32))
        (broadcastInDim S50000x1 ![0] bcast_S50000_S50000x1_0 bt) (broadcastInDim S50000 ![] bcast_S_S50000 (constant S_ .f32 0x3F800000#32)))
      (broadcastInDim S64 ![] bcast_S_S64 (constant S_ .f32 0x3F800000#32))))

/-- The per-graph sums divided by the counts. -/
def fin (s : FVec F S64x2 .f32) (bt : IVec S50000 32) : FVec F S64x2 .f32 := Host.divf s (den (F := F) bt)

variable (m : (ℓ : Loc nD τ sig) → Buf (Elt F) ℓ) (ρ : Dev nD → PrngReg)

/-- A stretch of host operations leaves a buffer none of them writes as it found it: the goal
    `after ops W b = W b` for the stretch named, each operation's result buffer differing from `b`. -/
local macro "keeps " h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The later stretches, from any contents

  What a stretch leaves in the buffer it computes last, given what it finds in the buffers it reads from
  earlier boundaries: the two word lists and the table of the kernel before, or the sums and the graph indices. -/

omit m ρ in
theorem stretch1_v26 (W : Valuation τ sig (Elt F)) (y : FVec F S50000x128 .f32) (ei : IVec S2x800000 32)
    (h3 : W (Proc.devRef .tc main_v3) = srcW ei) (h6 : W (Proc.devRef .tc main_v6) = dstW ei)
    (h16 : W (Proc.devRef .tc main_v16) = y) :
    StableHlo.after hostOps1 W (Proc.devRef .tc main_v26) = agg128 (F := F) y ei := by
  after_results
  rw [h3, h6, h16]
  rfl

omit m ρ in
theorem stretch2_v37 (W : Valuation τ sig (Elt F)) (y : FVec F S50000x2 .f32) (ei : IVec S2x800000 32)
    (h3 : W (Proc.devRef .tc main_v3) = srcW ei) (h6 : W (Proc.devRef .tc main_v6) = dstW ei)
    (h27 : W (Proc.devRef .tc main_v27) = y) :
    StableHlo.after hostOps2 W (Proc.devRef .tc main_v37) = agg2 (F := F) y ei := by
  after_results
  rw [h3, h6, h27]
  rfl

omit m ρ in
theorem stretch3_v47 (W : Valuation τ sig (Elt F)) (s : FVec F S64x2 .f32) (bt : IVec S50000 32)
    (h38 : W (Proc.devRef .tc main_v38) = s) (h2 : W (Proc.devRef .tc main_arg2) = bt) :
    StableHlo.after hostOps3 W (Proc.devRef .tc main_v47) = fin (F := F) s bt := by
  after_results
  rw [h38, h2]
  rfl

/-! ## What the first kernel is entered with -/

theorem V1_arg0 (c : Dev nD) : V1 m ρ c main_arg0 = m ((c : Thread nD τ).loc main_arg0) := by
  show StableHlo.after hostOps0 (W0 m ρ c) (Proc.devRef .tc main_arg0) = _
  refine Eq.trans (b := W0 m ρ c (Proc.devRef .tc main_arg0)) ?_ rfl
  keeps hostOps0
theorem V1_arg3 (c : Dev nD) : V1 m ρ c main_arg3 = m ((c : Thread nD τ).loc main_arg3) := by
  show StableHlo.after hostOps0 (W0 m ρ c) (Proc.devRef .tc main_arg3) = _
  refine Eq.trans (b := W0 m ρ c (Proc.devRef .tc main_arg3)) ?_ rfl
  keeps hostOps0
theorem V1_v12 (c : Dev nD) : V1 m ρ c main_v12 = dinv2d (F := F) (m ((c : Thread nD τ).loc main_arg1)) := by
  show StableHlo.after hostOps0 (W0 m ρ c) (Proc.devRef .tc main_v12) = _
  after_results
  rfl

/-! ## The buffers the host wrote before the first kernel

  Each is the host's function of the edge list (or a reshaped argument), read off the first stretch. -/

theorem W1_v3 (c : Dev nD) : W1 m ρ c (Proc.devRef .tc main_v3) = srcW (m ((c : Thread nD τ).loc main_arg1)) := by
  show StableHlo.after hostOps0 (W0 m ρ c) (Proc.devRef .tc main_v3) = _
  after_results
  rfl
theorem W1_v6 (c : Dev nD) : W1 m ρ c (Proc.devRef .tc main_v6) = dstW (m ((c : Thread nD τ).loc main_arg1)) := by
  show StableHlo.after hostOps0 (W0 m ρ c) (Proc.devRef .tc main_v6) = _
  after_results
  rfl
theorem W1_v13 (c : Dev nD) : W1 m ρ c (Proc.devRef .tc main_v13) = shapeCast _ (m ((c : Thread nD τ).loc main_arg4)) shapeCasts_S128_S1x128 := by
  show StableHlo.after hostOps0 (W0 m ρ c) (Proc.devRef .tc main_v13) = _
  after_results
  rfl
theorem W1_v14 (c : Dev nD) : W1 m ρ c (Proc.devRef .tc main_v14) = shapeCast _ (m ((c : Thread nD τ).loc main_arg6)) shapeCasts_S2_S1x2 := by
  show StableHlo.after hostOps0 (W0 m ρ c) (Proc.devRef .tc main_v14) = _
  after_results
  rfl
theorem W1_v15 (c : Dev nD) : W1 m ρ c (Proc.devRef .tc main_v15) = shapeCast _ (m ((c : Thread nD τ).loc main_arg2)) shapeCasts_S50000_S50000x1 := by
  show StableHlo.after hostOps0 (W0 m ρ c) (Proc.devRef .tc main_v15) = _
  after_results
  rfl

/-! ## Across the first kernel

  The kernel writes its result array only; the inverse-square-root column it reads through an input window,
  which leaves the array as entered; the word lists and the reshaped arguments are none of its arrays. -/

theorem W2_v3 (c : Dev nD) : W2 m ρ c (Proc.devRef .tc main_v3) = srcW (m ((c : Thread nD τ).loc main_arg1)) :=
  (W2_of_ne m ρ c main_v3 (by decide)).trans (W1_v3 m ρ c)
theorem W2_v6 (c : Dev nD) : W2 m ρ c (Proc.devRef .tc main_v6) = dstW (m ((c : Thread nD τ).loc main_arg1)) :=
  (W2_of_ne m ρ c main_v6 (by decide)).trans (W1_v6 m ρ c)
theorem W2_v16 (c : Dev nD) : W2 m ρ c (Proc.devRef .tc main_v16) = (dat0 (V1 m ρ) c).arrAt 3 cfg0.N :=
  W2_arr m ρ c 3
theorem W2_v12 (c : Dev nD) : W2 m ρ c (Proc.devRef .tc main_v12) = dinv2d (F := F) (m ((c : Thread nD τ).loc main_arg1)) :=
  ((W2_arr m ρ c 2).trans (((dat0 (V1 m ρ) c).arrAt_in 2 rfl _).trans (A_eq0 (V1 m ρ) c 2))).trans (V1_v12 m ρ c)
theorem W2_v13 (c : Dev nD) : W2 m ρ c (Proc.devRef .tc main_v13) = shapeCast _ (m ((c : Thread nD τ).loc main_arg4)) shapeCasts_S128_S1x128 :=
  (W2_of_ne m ρ c main_v13 (by decide)).trans (W1_v13 m ρ c)
theorem W2_v14 (c : Dev nD) : W2 m ρ c (Proc.devRef .tc main_v14) = shapeCast _ (m ((c : Thread nD τ).loc main_arg6)) shapeCasts_S2_S1x2 :=
  (W2_of_ne m ρ c main_v14 (by decide)).trans (W1_v14 m ρ c)
theorem W2_v15 (c : Dev nD) : W2 m ρ c (Proc.devRef .tc main_v15) = shapeCast _ (m ((c : Thread nD τ).loc main_arg2)) shapeCasts_S50000_S50000x1 :=
  (W2_of_ne m ρ c main_v15 (by decide)).trans (W1_v15 m ρ c)
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  refine Eq.trans (b := W0 m ρ c (Proc.devRef .tc main_arg5)) ?_ rfl
  keeps hostOps0

/-! ## What the second kernel is entered with -/

theorem V3_v26 (c : Dev nD) : V3 m ρ c main_v26
    = agg128 (F := F) ((dat0 (V1 m ρ) c).arrAt 3 cfg0.N) (m ((c : Thread nD τ).loc main_arg1)) := by
  exact stretch1_v26 (W2 m ρ c) _ _ (W2_v3 m ρ c) (W2_v6 m ρ c) (W2_v16 m ρ c)
theorem V3_v12 (c : Dev nD) : V3 m ρ c main_v12 = dinv2d (F := F) (m ((c : Thread nD τ).loc main_arg1)) := by
  refine Eq.trans ?_ (W2_v12 m ρ c)
  show StableHlo.after hostOps1 (W2 m ρ c) (Proc.devRef .tc main_v12) = _
  keeps hostOps1
theorem V3_v13 (c : Dev nD) : V3 m ρ c main_v13 = shapeCast _ (m ((c : Thread nD τ).loc main_arg4)) shapeCasts_S128_S1x128 := by
  refine Eq.trans ?_ (W2_v13 m ρ c)
  show StableHlo.after hostOps1 (W2 m ρ c) (Proc.devRef .tc main_v13) = _
  keeps hostOps1
theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  keeps hostOps1

/-! ## Across the second stretch and the second kernel -/

theorem W3_v3 (c : Dev nD) : W3 m ρ c (Proc.devRef .tc main_v3) = srcW (m ((c : Thread nD τ).loc main_arg1)) := by
  refine Eq.trans ?_ (W2_v3 m ρ c)
  show StableHlo.after hostOps1 (W2 m ρ c) (Proc.devRef .tc main_v3) = _
  keeps hostOps1
theorem W3_v6 (c : Dev nD) : W3 m ρ c (Proc.devRef .tc main_v6) = dstW (m ((c : Thread nD τ).loc main_arg1)) := by
  refine Eq.trans ?_ (W2_v6 m ρ c)
  show StableHlo.after hostOps1 (W2 m ρ c) (Proc.devRef .tc main_v6) = _
  keeps hostOps1
theorem W3_v14 (c : Dev nD) : W3 m ρ c (Proc.devRef .tc main_v14) = shapeCast _ (m ((c : Thread nD τ).loc main_arg6)) shapeCasts_S2_S1x2 := by
  refine Eq.trans ?_ (W2_v14 m ρ c)
  show StableHlo.after hostOps1 (W2 m ρ c) (Proc.devRef .tc main_v14) = _
  keeps hostOps1
theorem W3_v15 (c : Dev nD) : W3 m ρ c (Proc.devRef .tc main_v15) = shapeCast _ (m ((c : Thread nD τ).loc main_arg2)) shapeCasts_S50000_S50000x1 := by
  refine Eq.trans ?_ (W2_v15 m ρ c)
  show StableHlo.after hostOps1 (W2 m ρ c) (Proc.devRef .tc main_v15) = _
  keeps hostOps1
theorem W4_v3 (c : Dev nD) : W4 m ρ c (Proc.devRef .tc main_v3) = srcW (m ((c : Thread nD τ).loc main_arg1)) :=
  (W4_of_ne m ρ c main_v3 (by decide)).trans (W3_v3 m ρ c)
theorem W4_v6 (c : Dev nD) : W4 m ρ c (Proc.devRef .tc main_v6) = dstW (m ((c : Thread nD τ).loc main_arg1)) :=
  (W4_of_ne m ρ c main_v6 (by decide)).trans (W3_v6 m ρ c)
theorem W4_v27 (c : Dev nD) : W4 m ρ c (Proc.devRef .tc main_v27) = (dat1 (V3 m ρ) c).arrAt 4 cfg1.N :=
  W4_arr m ρ c 4
theorem W4_v12 (c : Dev nD) : W4 m ρ c (Proc.devRef .tc main_v12) = dinv2d (F := F) (m ((c : Thread nD τ).loc main_arg1)) :=
  ((W4_arr m ρ c 1).trans (((dat1 (V3 m ρ) c).arrAt_in 1 rfl _).trans (A_eq1 (V3 m ρ) c 1))).trans (V3_v12 m ρ c)
theorem W4_v14 (c : Dev nD) : W4 m ρ c (Proc.devRef .tc main_v14) = shapeCast _ (m ((c : Thread nD τ).loc main_arg6)) shapeCasts_S2_S1x2 :=
  (W4_of_ne m ρ c main_v14 (by decide)).trans (W3_v14 m ρ c)
theorem W4_v15 (c : Dev nD) : W4 m ρ c (Proc.devRef .tc main_v15) = shapeCast _ (m ((c : Thread nD τ).loc main_arg2)) shapeCasts_S50000_S50000x1 :=
  (W4_of_ne m ρ c main_v15 (by decide)).trans (W3_v15 m ρ c)

/-! ## What the third kernel is entered with -/

theorem V5_v37 (c : Dev nD) : V5 m ρ c main_v37
    = agg2 (F := F) ((dat1 (V3 m ρ) c).arrAt 4 cfg1.N) (m ((c : Thread nD τ).loc main_arg1)) := by
  exact stretch2_v37 (W4 m ρ c) _ _ (W4_v3 m ρ c) (W4_v6 m ρ c) (W4_v27 m ρ c)
theorem V5_v12 (c : Dev nD) : V5 m ρ c main_v12 = dinv2d (F := F) (m ((c : Thread nD τ).loc main_arg1)) := by
  refine Eq.trans ?_ (W4_v12 m ρ c)
  show StableHlo.after hostOps2 (W4 m ρ c) (Proc.devRef .tc main_v12) = _
  keeps hostOps2
theorem V5_v14 (c : Dev nD) : V5 m ρ c main_v14 = shapeCast _ (m ((c : Thread nD τ).loc main_arg6)) shapeCasts_S2_S1x2 := by
  refine Eq.trans ?_ (W4_v14 m ρ c)
  show StableHlo.after hostOps2 (W4 m ρ c) (Proc.devRef .tc main_v14) = _
  keeps hostOps2
theorem V5_v15 (c : Dev nD) : V5 m ρ c main_v15 = shapeCast _ (m ((c : Thread nD τ).loc main_arg2)) shapeCasts_S50000_S50000x1 := by
  refine Eq.trans ?_ (W4_v15 m ρ c)
  show StableHlo.after hostOps2 (W4 m ρ c) (Proc.devRef .tc main_v15) = _
  keeps hostOps2

/-! ## Across the third kernel

  Its result array holds what its write-backs leave; the graph-index argument is none of its arrays, and no
  later operation writes it, so it is still the launch's. -/

theorem W6_v38 (c : Dev nD) : W6 m ρ c (Proc.devRef .tc main_v38) = (dat2 (V5 m ρ) c).arrAt 4 cfg2.N :=
  W6_arr m ρ c 4
theorem W6_arg2 (c : Dev nD) : W6 m ρ c (Proc.devRef .tc main_arg2) = m ((c : Thread nD τ).loc main_arg2) := by
  refine Eq.trans (Eq.symm ?_) (W7_main_arg2 m ρ c)
  show StableHlo.after hostOps3 (W6 m ρ c) (Proc.devRef .tc main_arg2) = _
  keeps hostOps3

/-! ## The program's result -/

theorem W7_v47 (c : Dev nD) : W7 m ρ c (Proc.devRef .tc main_v47)
    = fin (F := F) ((dat2 (V5 m ρ) c).arrAt 4 cfg2.N) (m ((c : Thread nD τ).loc main_arg2)) := by
  exact stretch3_v47 (W6 m ρ c) _ _ (W6_v38 m ρ c) (W6_arg2 m ρ c)

end Cert.KernelIdeal.Chain

end
-- ==== Proof.Spec.lean ====
/-
  The mathematics of a two-layer graph convolution with mean pooling, stated over plain index
  functions at the extended reals.

  Nodes n < N, edges e < E (the self-loops included). Edge e lands at node n when its destination
  word, read signed, is n (a word outside [0, N) lands nowhere), and it reads the node its source
  word names after the usual wrap of a negative word and a clamp into [0, N - 1]. With
  deg n = the number of edges that land at n and dinv n = (deg n)^(-1/2), one layer sends features h
  to  out n j = Σ_{e lands at n} h (src e) j · (dinv (src e) · dinv n) + b j.
  The factor dinv n is the same in every term of the sum, finite and non-negative whenever the sum
  has a term at all, so it may be taken out of the sum; that is the one law used below.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.Spec

open Idealize.ShloMosaic Idealize.ShloMosaic.ValueIdx

/-- Where an update whose index word is `w` lands in a table of `N` rows: the row the word names,
    read signed, and nowhere when that is outside [0, N). -/
def landIx (N : Nat) (w : BitVec 32) : Option (Fin N) :=
  if h : 0 ≤ w.toInt ∧ w.toInt < (N : Int) then some ⟨w.toInt.toNat, by omega⟩ else none

/-- The row a gather reads for the index word `w` in a table of `N` rows: the word read signed and
    clamped into [0, N - 1]. -/
def clampIx (N : Nat) (hN : 0 < N) (w : BitVec 32) : Fin N := ⟨min w.toInt.toNat (N - 1), by omega⟩

/-- A word that lands in row n is read by a gather at row n. -/
theorem clampIx_of_landIx {N : Nat} (hN : 0 < N) {w : BitVec 32} {n : Fin N} (h : landIx N w = some n) :
    clampIx N hN w = n := by
  unfold landIx at h
  split at h
  · next hr =>
    have := Option.some.inj h
    subst this
    apply Fin.ext
    show min w.toInt.toNat (N - 1) = w.toInt.toNat
    omega
  · exact absurd h (by simp)

abbrev A2 (r c : Nat) := (⟨2, ![r, c]⟩ : Shape).Idx → EReal
abbrev A1 (n : Nat) := (⟨1, ![n]⟩ : Shape).Idx → EReal
abbrev I2 (r c : Nat) := (⟨2, ![r, c]⟩ : Shape).Idx → BitVec 32

/-! ## What each of the three kernels leaves, entry by entry -/

/-- The first kernel: row n of x times W, scaled by that row's dinv. -/
def lin1 (x : A2 50000 128) (w : A2 128 128) (dv : A2 50000 1) (n : Fin 50000) (j : Fin 128) : EReal :=
  (∑ k : Fin 128, x (ix2 n k) * w (ix2 k j)) * dv (ix2 n 0)

/-- The hidden activation the second kernel forms from the first aggregation: scale by dinv, add the
    bias, clip at zero. -/
def hid (a : A2 50000 128) (dv : A2 50000 1) (b : A2 1 128) (n : Fin 50000) (k : Fin 128) : EReal :=
  max (a (ix2 n k) * dv (ix2 n 0) + b (ix2 0 k)) 0

/-- The second kernel: the hidden activation's row n times W2, scaled by that row's dinv. -/
def lin2 (a : A2 50000 128) (dv : A2 50000 1) (b : A2 1 128) (w : A2 128 2) (n : Fin 50000) (j : Fin 2) : EReal :=
  (∑ k : Fin 128, hid a dv b n k * w (ix2 k j)) * dv (ix2 n 0)

/-- The third kernel: the rows of the scaled and biased second aggregation summed per graph; row i
    counts for graph g when its batch word is the word of g. -/
def pool (a : A2 50000 2) (dv : A2 50000 1) (b : A2 1 2) (bt : I2 50000 1) (g : Fin 64) (j : Fin 2) : EReal :=
  ∑ i : Fin 50000, (if bt (ix2 i 0) = BitVec.ofNat 32 g.val then a (ix2 i j) * dv (ix2 i 0) + b (ix2 0 j) else 0)

/-! ## Taking the destination's factor out of an aggregation -/

/-- A factor that is finite and non-negative whenever the sum has a term comes out of the sum. -/
theorem sum_mul_factor {ι : Type*} (S : Finset ι) (a p : ι → EReal) (c : EReal)
    (hc : S.Nonempty → 0 ≤ c ∧ c ≠ ⊤) :
    ∑ e ∈ S, a e * (p e * c) = (∑ e ∈ S, a e * p e) * c := by
  classical
  rcases S.eq_empty_or_nonempty with rfl | hS
  · simp
  · obtain ⟨h0, h1⟩ := hc hS
    clear hS hc
    induction S using Finset.induction_on with
    | empty => simp
    | insert e S he ih =>
      rw [Finset.sum_insert he, Finset.sum_insert he, ih, EReal.right_distrib_of_nonneg_of_ne_top h0 h1, mul_assoc]

/-- The inverse square root of a positive count is a non-negative real. -/
theorem rsqrt_natCast {k : ℕ} (hk : 0 < k) :
    0 ≤ Ideal.rsqrt (((k : ℝ) : EReal)) ∧ Ideal.rsqrt (((k : ℝ) : EReal)) ≠ ⊤ := by
  have hk' : (0 : ℝ) < (k : ℝ) := by exact_mod_cast hk
  rw [Ideal.rsqrt_coe, if_neg (not_lt.mpr hk'.le), if_neg hk'.ne']
  refine ⟨?_, EReal.coe_ne_top _⟩
  exact_mod_cast inv_nonneg.mpr (Real.sqrt_nonneg _)

end Cert.Spec

end
-- ==== Proof.RegionValue01.lean ====
/-
  What the first two kernels leave in their output arrays, entry by entry.

  Both run over ten blocks of 5000 rows; block t of the output is a function of block t of each
  row-blocked input and of the whole small inputs, so row n of the output array is that function at
  block n / 5000, row n % 5000, which reads back row n of the inputs.
-/
import proofs.«420345_j67774583930931_2_alg».proof.Proof.Gen.KernelIdeal.Frame
import proofs.«420345_j67774583930931_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open scoped BigOperators

/-! ## The first kernel's product: which operand entries an output entry reads -/

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, j) of the product into the zero accumulator: row r of the left operand against column j of the right. -/
theorem matmul0_apply (a : FVec Ideal S5000x128 .bf16) (b : FVec Ideal S128x128 .bf16) (r : Fin 5000) (j : Fin 128) :
    (matmul dot_S5000x128_S128x128_S5000x128_1_0_0_1_n_n none a b (constant (F := Ideal) S5000x128 .f32 0x00000000#32) : FVec Ideal S5000x128 .f32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs0_0 _ _).trans hk
    | ⟨1, _⟩ => exact rhs0_1 _ _)
  rw [el, er]

/-! ## A column spread over the lanes -/

/-- A column `[a, 1]` spread to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first kernel's body at an entry of its block -/

/-- Entry (r, j) of what the first body stores: row r of its x block against column j of W, times row r of the
    scale column. The narrowing of the operands is the identity at the ideal values. -/
theorem pay0_apply (x0 : Vec Ideal S5000x128 .f32) (x1 : Vec Ideal S128x128 .f32) (x2 : Vec Ideal S5000x1 .f32) (r : Fin 5000) (j : Fin 128) :
    (k0_pay1 x0 x1 x2 : S5000x128.Idx → EReal) (ix2 r j) = (∑ k : Fin 128, x0 (ix2 r k) * x1 (ix2 k j)) * x2 (ix2 r 0) := by
  unfold k0_pay1
  refine (mulf_apply _ _ _).trans ?_
  refine congrArg₂ (· * ·) ?_ ?_
  · refine (matmul0_apply _ _ r j).trans ?_
    rfl
  · refine (broadcastTo_a1_ab_apply _ _ r j).trans ?_
    rw [shapeCast_self]

/-! ## The first kernel: from its ten row blocks to the array -/

theorem offsets_zero : (![0, 0] : Fin 2 → Nat) = fun _ => 0 := funext fun a => by fin_cases a <;> rfl

/-- The first kernel's output array as one function of the arrays it reads. -/
def G0 (c : Dev nD) : S50000x128.Idx → EReal := fun i =>
  Cert.Spec.lin1 (V c main_arg0) (V c main_arg3) (V c main_v12) ⟨(i 0).val, idx2_lt0 i⟩ ⟨(i 1).val, idx2_lt1 i⟩

/-- Where each window's block sits at point t: the row-blocked arrays at block row t, W at its only block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of x's block at point t is row 5000 t + r of x. -/
theorem xblk0 (c : Dev nD) (t : Fin cfg0.N) (r : Fin 5000) (k : Fin 128) (hb : t.val * 5000 + r.val < 50000) :
    (iblk0 V c 0 t : S5000x128.Idx → EReal) (ix2 r k) = (V c main_arg0 : S50000x128.Idx → EReal) (ix2 ⟨t.val * 5000 + r.val, hb⟩ k) := by
  obtain ⟨e00, e01, -⟩ := blocks0 t
  show (V c main_arg0 : S50000x128.Idx → EReal) (((cfg0.win 0).blk t).view.emb (ix2 r k)) = _
  refine congrArg _ (funext fun a => Fin.ext ?_)
  match a with
  | ⟨0, _⟩ => show win0_0.index t (0 : Fin 2) * 5000 + 1 * r.val = t.val * 5000 + r.val; rw [e00]; omega
  | ⟨1, _⟩ => show win0_0.index t (1 : Fin 2) * 128 + 1 * k.val = k.val; rw [e01]; omega

/-- W's block at every point is W. -/
theorem wblk0 (c : Dev nD) (t : Fin cfg0.N) (k j : Fin 128) :
    (iblk0 V c 1 t : S128x128.Idx → EReal) (ix2 k j) = (V c main_arg3 : S128x128.Idx → EReal) (ix2 k j) := by
  obtain ⟨-, -, e10, e11, -⟩ := blocks0 t
  show (V c main_arg3 : S128x128.Idx → EReal) (((cfg0.win 1).blk t).view.emb (ix2 k j)) = _
  refine congrArg _ (funext fun a => Fin.ext ?_)
  match a with
  | ⟨0, _⟩ => show win0_1.index t (0 : Fin 2) * 128 + 1 * k.val = k.val; rw [e10]; omega
  | ⟨1, _⟩ => show win0_1.index t (1 : Fin 2) * 128 + 1 * j.val = j.val; rw [e11]; omega

/-- Row r of the scale column's block at point t is row 5000 t + r of the column. -/
theorem dblk0 (c : Dev nD) (t : Fin cfg0.N) (r : Fin 5000) (hb : t.val * 5000 + r.val < 50000) :
    (iblk0 V c 2 t : S5000x1.Idx → EReal) (ix2 r 0) = (V c main_v12 : S50000x1.Idx → EReal) (ix2 ⟨t.val * 5000 + r.val, hb⟩ 0) := by
  obtain ⟨-, -, -, -, e20, e21, -⟩ := blocks0 t
  show (V c main_v12 : S50000x1.Idx → EReal) (((cfg0.win 2).blk t).view.emb (ix2 r 0)) = _
  refine congrArg _ (funext fun a => Fin.ext ?_)
  match a with
  | ⟨0, _⟩ => show win0_2.index t (0 : Fin 2) * 5000 + 1 * r.val = t.val * 5000 + r.val; rw [e20]; omega
  | ⟨1, _⟩ => show win0_2.index t (1 : Fin 2) * 1 + 1 * 0 = 0; rw [e21]

/-- The body's stored entry, over blocks known to be rows 5000 b … 5000 b + 4999 of the arrays: the array
    function at the entry's place in the array. -/
theorem point0 (A0 : S50000x128.Idx → EReal) (A1 : S128x128.Idx → EReal) (A2 : S50000x1.Idx → EReal)
    (x0 : Vec Ideal S5000x128 .f32) (x1 : Vec Ideal S128x128 .f32) (x2 : Vec Ideal S5000x1 .f32) (b : ℕ) (hb : b < 10)
    (h0 : ∀ (r : Fin 5000) (k : Fin 128), x0 (ix2 r k) = A0 (ix2 ⟨b * 5000 + r.val, by omega⟩ k))
    (h1 : ∀ (k j : Fin 128), x1 (ix2 k j) = A1 (ix2 k j))
    (h2 : ∀ (r : Fin 5000), x2 (ix2 r 0) = A2 (ix2 ⟨b * 5000 + r.val, by omega⟩ 0))
    (y : S5000x128.Idx) (i : S50000x128.Idx) (hi0 : (i 0).val = b * 5000 + (y 0).val) (hi1 : (i 1).val = (y 1).val) :
    (k0_pay1 x0 x1 x2 : S5000x128.Idx → EReal) y = Cert.Spec.lin1 A0 A1 A2 ⟨(i 0).val, idx2_lt0 i⟩ ⟨(i 1).val, idx2_lt1 i⟩ := by
  obtain ⟨r, q, rfl⟩ : ∃ (r : Fin 5000) (q : Fin 128), y = ix2 r q := ⟨y 0, y 1, eq_ix2 y⟩
  have e0 : (⟨(i 0).val, idx2_lt0 i⟩ : Fin 50000) = ⟨b * 5000 + r.val, by omega⟩ := Fin.ext hi0
  have e1 : (⟨(i 1).val, idx2_lt1 i⟩ : Fin 128) = q := Fin.ext hi1
  rw [pay0_apply, e0, e1]
  unfold Cert.Spec.lin1
  rw [h2]
  refine congrArg (· * _) (Finset.sum_congr rfl fun k _ => ?_)
  rw [h0, h1]

theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero offsets_zero]
  simp only [View.ld_unit_zero (S := S5000x128) offsets_zero, View.ld_unit_zero (S := S128x128) offsets_zero, View.ld_unit_zero (S := S5000x1) offsets_zero]
  funext y
  obtain ⟨-, -, -, -, -, -, e30, e31⟩ := blocks0 t
  have hN : cfg0.N = 10 := N_0
  have ht : t.val < 10 := hN ▸ t.isLt
  refine point0 (V c main_arg0) (V c main_arg3) (V c main_v12) (iblk0 V c 0 t) (iblk0 V c 1 t) (iblk0 V c 2 t) t.val ht
    (fun r k => xblk0 V c t r k _) (fun k j => wblk0 V c t k j) (fun r => dblk0 V c t r _) y (((cfg0.win 3).blk t).view.emb y) ?_ ?_
  · show win0_3.index t (0 : Fin 2) * 5000 + 1 * (y 0).val = t.val * 5000 + (y 0).val; rw [e30]; omega
  · show win0_3.index t (1 : Fin 2) * 128 + 1 * (y 1).val = (y 1).val; rw [e31]; omega

/-- An entry of the output array lies in point t's block when its row is one of the block's 5000. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every entry of the output array is written by the point of its row's block, row / 5000. -/
theorem cover0 (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  have ht : (i 0).val / 5000 < cfg0.N := by rw [hN]; omega
  obtain ⟨-, -, -, -, -, -, e30, e31⟩ := blocks0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

/-- The first kernel's output array at (n, j): row n of x times column j of W, times row n's scale. -/
theorem region0_value (c : Dev nD) (n : Fin 50000) (j : Fin 128) :
    ((dat0 (F := Ideal) V c).arrAt 3 cfg0.N : S50000x128.Idx → EReal) (ix2 n j)
      = Cert.Spec.lin1 (V c main_arg0) (V c main_arg3) (V c main_v12) n j := by
  have h := (dat0 (F := Ideal) V c).arrAt_eq_of_cover 3 (G0 V c) (fun t _ => flushed0_eq V c t) cover0
  exact (congrFun h (ix2 n j)).trans rfl

/-! ## The second kernel's product: which operand entries an output entry reads -/

theorem lhs1_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs1_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs1_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs1_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- Entry (r, j) of the product into the zero accumulator: row r of the left operand against column j of the right. -/
theorem matmul1_apply (a : FVec Ideal S5000x128 .bf16) (b : FVec Ideal S128x2 .bf16) (r : Fin 5000) (j : Fin 2) :
    (matmul dot_S5000x128_S128x2_S5000x2_1_0_0_1_n_n none a b (constant (F := Ideal) S5000x2 .f32 0x00000000#32) : FVec Ideal S5000x2 .f32) (ix2 r j)
      = ∑ k : Fin 128, a (ix2 r k) * b (ix2 k j) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 r j) ((contrEquiv1 dot_S5000x128_S128x2_S5000x2_1_0_0_1_n_n 128 rfl rfl).symm k) = ix2 r k := funext fun a => Fin.ext (by
    match a with
    | ⟨0, _⟩ => exact lhs1_0 _ _
    | ⟨1, _⟩ => exact (lhs1_1 _ _).trans hk)
  have er : dot_S5000x128_S128x2_S5000x2_1_0_0_1_n_n.rhsIdx (ix2 r j) ((contrEquiv1 dot_S5000x128_S128x2_S5000x2_1_0_0_1_n_n 128 rfl rfl).symm k) = ix2 k j := funext fun a => Fin.ext (by
    match a with
    | ⟨0, _⟩ => exact (rhs1_0 _ _).trans hk
    | ⟨1, _⟩ => exact rhs1_1 _ _)
  rw [el, er]

/-! ## The second kernel's body at an entry of its block -/

/-- Entry (r, j) of what the second body stores: the hidden activation of row r (the aggregate scaled by the row's
    scale, the bias added, clipped at zero) against column j of W2, times row r of the scale column read the
    second time. The narrowing of the operands is the identity at the ideal values. -/
theorem pay1_apply (x0 : Vec Ideal S5000x128 .f32) (x1 : Vec Ideal S5000x1 .f32) (x2 : Vec Ideal S1x128 .f32) (x3 : Vec Ideal S128x2 .f32)
    (x4 : Vec Ideal S5000x1 .f32) (r : Fin 5000) (j : Fin 2) :
    (k1_pay1 x0 x1 x2 x3 x4 : S5000x2.Idx → EReal) (ix2 r j)
      = (∑ k : Fin 128, max (x0 (ix2 r k) * x1 (ix2 r 0) + x2 (ix2 0 k)) 0 * x3 (ix2 k j)) * x4 (ix2 r 0) := by
  unfold k1_pay1
  refine (mulf_apply _ _ _).trans ?_
  refine congrArg₂ (· * ·) ?_ ?_
  · refine (matmul1_apply _ _ r j).trans ?_
    refine Finset.sum_congr rfl fun k _ => ?_
    refine congrArg₂ (· * ·) ?_ rfl
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ ?_
        · rw [shapeCast_self]
        · refine (broadcastTo_a1_ab_apply _ _ r k).trans ?_
          rw [shapeCast_self]
      · refine (broadcastTo_1b_ab_apply _ _ r k).trans ?_
        rw [shapeCast_self]
    · show Ideal.ofBits .f32 0x00000000#32 = 0
      exact Ideal.ofBits_zero_f32
  · refine (broadcastTo_a1_ab_apply _ _ r j).trans ?_
    rw [shapeCast_self]

/-! ## The second kernel: from its ten row blocks to the array -/

/-- The second kernel's output array as one function of the arrays it reads. -/
def G1 (c : Dev nD) : S50000x2.Idx → EReal := fun i =>
  Cert.Spec.lin2 (V c main_v26) (V c main_v12) (V c main_v13) (V c main_arg5) ⟨(i 0).val, idx2_lt0 i⟩ ⟨(i 1).val, idx2_lt1 i⟩

/-- Where each window's block sits at point t: the row-blocked arrays at block row t, the bias row and W2 at their
    only block. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of the aggregate's block at point t is row 5000 t + r of the aggregate. -/
theorem ablk1 (c : Dev nD) (t : Fin cfg1.N) (r : Fin 5000) (k : Fin 128) (hb : t.val * 5000 + r.val < 50000) :
    (iblk1 V c 0 t : S5000x128.Idx → EReal) (ix2 r k) = (V c main_v26 : S50000x128.Idx → EReal) (ix2 ⟨t.val * 5000 + r.val, hb⟩ k) := by
  obtain ⟨e00, e01, -⟩ := blocks1 t
  show (V c main_v26 : S50000x128.Idx → EReal) (((cfg1.win 0).blk t).view.emb (ix2 r k)) = _
  refine congrArg _ (funext fun a => Fin.ext ?_)
  match a with
  | ⟨0, _⟩ => show win1_0.index t (0 : Fin 2) * 5000 + 1 * r.val = t.val * 5000 + r.val; rw [e00]; omega
  | ⟨1, _⟩ => show win1_0.index t (1 : Fin 2) * 128 + 1 * k.val = k.val; rw [e01]; omega

/-- Row r of the scale column's block at point t is row 5000 t + r of the column. -/
theorem dblk1 (c : Dev nD) (t : Fin cfg1.N) (r : Fin 5000) (hb : t.val * 5000 + r.val < 50000) :
    (iblk1 V c 1 t : S5000x1.Idx → EReal) (ix2 r 0) = (V c main_v12 : S50000x1.Idx → EReal) (ix2 ⟨t.val * 5000 + r.val, hb⟩ 0) := by
  obtain ⟨-, -, e10, e11, -⟩ := blocks1 t
  show (V c main_v12 : S50000x1.Idx → EReal) (((cfg1.win 1).blk t).view.emb (ix2 r 0)) = _
  refine congrArg _ (funext fun a => Fin.ext ?_)
  match a with
  | ⟨0, _⟩ => show win1_1.index t (0 : Fin 2) * 5000 + 1 * r.val = t.val * 5000 + r.val; rw [e10]; omega
  | ⟨1, _⟩ => show win1_1.index t (1 : Fin 2) * 1 + 1 * 0 = 0; rw [e11]

/-- The bias row's block at every point is the bias row. -/
theorem bblk1 (c : Dev nD) (t : Fin cfg1.N) (k : Fin 128) :
    (iblk1 V c 2 t : S1x128.Idx → EReal) (ix2 0 k) = (V c main_v13 : S1x128.Idx → EReal) (ix2 0 k) := by
  obtain ⟨-, -, -, -, e20, e21, -⟩ := blocks1 t
  show (V c main_v13 : S1x128.Idx → EReal) (((cfg1.win 2).blk t).view.emb (ix2 0 k)) = _
  refine congrArg _ (funext fun a => Fin.ext ?_)
  match a with
  | ⟨0, _⟩ => show win1_2.index t (0 : Fin 2) * 1 + 1 * 0 = 0; rw [e20]
  | ⟨1, _⟩ => show win1_2.index t (1 : Fin 2) * 128 + 1 * k.val = k.val; rw [e21]; omega

/-- W2's block at every point is W2. -/
theorem wblk1 (c : Dev nD) (t : Fin cfg1.N) (k : Fin 128) (j : Fin 2) :
    (iblk1 V c 3 t : S128x2.Idx → EReal) (ix2 k j) = (V c main_arg5 : S128x2.Idx → EReal) (ix2 k j) := by
  obtain ⟨-, -, -, -, -, -, e30, e31, -⟩ := blocks1 t
  show (V c main_arg5 : S128x2.Idx → EReal) (((cfg1.win 3).blk t).view.emb (ix2 k j)) = _
  refine congrArg _ (funext fun a => Fin.ext ?_)
  match a with
  | ⟨0, _⟩ => show win1_3.index t (0 : Fin 2) * 128 + 1 * k.val = k.val; rw [e30]; omega
  | ⟨1, _⟩ => show win1_3.index t (1 : Fin 2) * 2 + 1 * j.val = j.val; rw [e31]; omega

/-- The body's stored entry, over blocks known to be rows 5000 b … 5000 b + 4999 of the arrays (the scale column's
    block read twice): the array function at the entry's place in the array. -/
theorem point1 (A0 : S50000x128.Idx → EReal) (A1 : S50000x1.Idx → EReal) (A2 : S1x128.Idx → EReal) (A3 : S128x2.Idx → EReal)
    (x0 : Vec Ideal S5000x128 .f32) (x1 : Vec Ideal S5000x1 .f32) (x2 : Vec Ideal S1x128 .f32) (x3 : Vec Ideal S128x2 .f32) (b : ℕ) (hb : b < 10)
    (h0 : ∀ (r : Fin 5000) (k : Fin 128), x0 (ix2 r k) = A0 (ix2 ⟨b * 5000 + r.val, by omega⟩ k))
    (h1 : ∀ (r : Fin 5000), x1 (ix2 r 0) = A1 (ix2 ⟨b * 5000 + r.val, by omega⟩ 0))
    (h2 : ∀ (k : Fin 128), x2 (ix2 0 k) = A2 (ix2 0 k))
    (h3 : ∀ (k : Fin 128) (j : Fin 2), x3 (ix2 k j) = A3 (ix2 k j))
    (y : S5000x2.Idx) (i : S50000x2.Idx) (hi0 : (i 0).val = b * 5000 + (y 0).val) (hi1 : (i 1).val = (y 1).val) :
    (k1_pay1 x0 x1 x2 x3 x1 : S5000x2.Idx → EReal) y = Cert.Spec.lin2 A0 A1 A2 A3 ⟨(i 0).val, idx2_lt0 i⟩ ⟨(i 1).val, idx2_lt1 i⟩ := by
  obtain ⟨r, q, rfl⟩ : ∃ (r : Fin 5000) (q : Fin 2), y = ix2 r q := ⟨y 0, y 1, eq_ix2 y⟩
  have e0 : (⟨(i 0).val, idx2_lt0 i⟩ : Fin 50000) = ⟨b * 5000 + r.val, by omega⟩ := Fin.ext hi0
  have e1 : (⟨(i 1).val, idx2_lt1 i⟩ : Fin 2) = q := Fin.ext hi1
  rw [pay1_apply, e0, e1]
  unfold Cert.Spec.lin2 Cert.Spec.hid
  rw [h1]
  refine congrArg (· * _) (Finset.sum_congr rfl fun k _ => ?_)
  rw [h0, h2, h3]

theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero offsets_zero]
  simp only [View.ld_unit_zero (S := S5000x128) offsets_zero, View.ld_unit_zero (S := S5000x1) offsets_zero, View.ld_unit_zero (S := S1x128) offsets_zero, View.ld_unit_zero (S := S128x2) offsets_zero]
  funext y
  obtain ⟨-, -, -, -, -, -, -, -, e40, e41⟩ := blocks1 t
  have hN : cfg1.N = 10 := N_1
  have ht : t.val < 10 := hN ▸ t.isLt
  refine point1 (V c main_v26) (V c main_v12) (V c main_v13) (V c main_arg5) (iblk1 V c 0 t) (iblk1 V c 1 t) (iblk1 V c 2 t) (iblk1 V c 3 t) t.val ht
    (fun r k => ablk1 V c t r k _) (fun r => dblk1 V c t r _) (fun k => bblk1 V c t k) (fun k j => wblk1 V c t k j) y (((cfg1.win 4).blk t).view.emb y) ?_ ?_
  · show win1_4.index t (0 : Fin 2) * 5000 + 1 * (y 0).val = t.val * 5000 + (y 0).val; rw [e40]; omega
  · show win1_4.index t (1 : Fin 2) * 2 + 1 * (y 1).val = (y 1).val; rw [e41]; omega

/-- An entry of the output array lies in point t's block when its row is one of the block's 5000. -/
theorem mem_blk1 (t : Fin cfg1.N) (i : S50000x2.Idx) :
    i ∈ ((cfg1.win 4).blk t).view.set ↔ ∀ a : Fin 2, win1_4.index t a * S5000x2.size a ≤ (i a).val ∧ (i a).val < win1_4.index t a * S5000x2.size a + S5000x2.size a := by
  show i ∈ ((View.whole main_v27).slice (win1_4.rect t)).set ↔ _
  rw [View.set_slice_whole, Rect.mem_set_unit]
  exact Iff.rfl

/-- Every entry of the output array is written by the point of its row's block, row / 5000. -/
theorem cover1 (i : S50000x2.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 2 := (i 1).isLt
  have ht : (i 0).val / 5000 < cfg1.N := by rw [hN]; omega
  obtain ⟨-, -, -, -, -, -, -, -, e40, e41⟩ := blocks1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 2 ≤ (i 1).val ∧ (i 1).val < win1_4.index ⟨(i 0).val / 5000, ht⟩ (1 : Fin 2) * 2 + 2
    rw [e41]; omega

/-- The second kernel's output array at (n, j): the hidden activation's row n times column j of W2, times
    row n's scale. -/
theorem region1_value (c : Dev nD) (n : Fin 50000) (j : Fin 2) :
    ((dat1 (F := Ideal) V c).arrAt 4 cfg1.N : S50000x2.Idx → EReal) (ix2 n j)
      = Cert.Spec.lin2 (V c main_v26) (V c main_v12) (V c main_v13) (V c main_arg5) n j := by
  have h := (dat1 (F := Ideal) V c).arrAt_eq_of_cover 4 (G1 V c) (fun t _ => flushed1_eq V c t) cover1
  exact (congrFun h (ix2 n j)).trans rfl

end Cert.KernelIdeal.RegionValue

end
-- ==== Proof.Region2Value.lean ====
/-
  What the pooling kernel leaves in its output array, entry by entry.

  Its one output block is revisited at every one of the ten grid points: cleared at the first, and at
  each point the product of the block's one-hot graph membership (transposed) with the block's scaled
  and biased rows is added to it. After the last point entry (g, j) is the sum over all 50000 rows whose
  batch word is g's of the row's entry j.
-/
import proofs.«420345_j67774583930931_2_alg».proof.Proof.Gen.KernelIdeal.Frame
import proofs.«420345_j67774583930931_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What each point leaves in the output block, as a value -/

section Pieces

variable {F : FTy → Type} [FloatOps F]

/-- The zero offsets of a whole-block load or store, as a constant function. -/
theorem off00 : (![0, 0] : Fin 2 → Nat) = fun _ => 0 := funext fun a => by
  match a with | ⟨0, _⟩ => rfl | ⟨1, _⟩ => rfl

/-- At a later point the output block ends at the update of what it held. -/
theorem later_piece (c : Dev nD) (i : grid2.Coords) (a1 : Memref sig .tc .vmem S5000x2 .f32) (h1 : a1.IsWhole)
    (a2 : Memref sig .tc .vmem S5000x1 .f32) (h2 : a2.IsWhole) (a3 : Memref sig .tc .vmem S1x2 .f32) (h3 : a3.IsWhole)
    (a4 : Memref sig .tc .vmem S5000x1 .i32) (h4 : a4.IsWhole) (a5 : Memref sig .tc .vmem S64x2 .f32) (h5 : a5.IsWhole)
    (hc : ¬cond2_0 i) (x0 : Vec F S5000x2 .f32) (x1 : Vec F S5000x1 .f32) (x2 : Vec F S1x2 .f32)
    (x3 : Vec F S5000x1 .i32) (xo : Vec F S64x2 .f32) :
    out2_B_4 c i a1 h1 a2 h2 a3 h3 a4 h4 a5 h5 hc x0 x1 x2 x3 xo = k2_pay2 x0 x1 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  sl_unfold_words
  rw [View.canon_unit_zero off00]
  simp only [View.readAt_eq_ld, h1.read_unread, h2.read_unread, h3.read_unread, h4.read_unread, h5.read_unread,
    View.ld_unit_zero (S := S5000x2) off00, View.ld_unit_zero (S := S5000x1) off00,
    View.ld_unit_zero (S := S1x2) off00, View.ld_unit_zero (S := S64x2) off00]

/-- At the first point the output block is cleared, read back, and ends at the update of the zero block. -/
theorem first_piece (c : Dev nD) (i : grid2.Coords) (a1 : Memref sig .tc .vmem S5000x2 .f32) (h1 : a1.IsWhole)
    (a2 : Memref sig .tc .vmem S5000x1 .f32) (h2 : a2.IsWhole) (a3 : Memref sig .tc .vmem S1x2 .f32) (h3 : a3.IsWhole)
    (a4 : Memref sig .tc .vmem S5000x1 .i32) (h4 : a4.IsWhole) (a5 : Memref sig .tc .vmem S64x2 .f32) (h5 : a5.IsWhole)
    (hc : cond2_0 i) (x0 : Vec F S5000x2 .f32) (x1 : Vec F S5000x1 .f32) (x2 : Vec F S1x2 .f32)
    (x3 : Vec F S5000x1 .i32) :
    out2_A_4 c i a1 h1 a2 h2 a3 h3 a4 h4 a5 h5 hc x0 x1 x2 x3 = k2_pay2 x0 x1 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x2) off00, View.readCov_unit_zero (S := S64x2) _ off00]
  simp only [View.readAt_eq_ld, h1.read_unread, h2.read_unread, h3.read_unread, h4.read_unread,
    View.ld_unit_zero (S := S5000x2) off00, View.ld_unit_zero (S := S5000x1) off00,
    View.ld_unit_zero (S := S1x2) off00]

end Pieces

/-! ## The update at an entry -/

section Payload

/-- The left operand of the block product is read at (contraction row, output row) … -/
theorem lhs_poolDot_0 (i : S64x2.Idx) (q : dot_S5000x64_S5000x2_S64x2_0_0_1_1_n_n.contr.Idx) :
    (dot_S5000x64_S5000x2_S64x2_0_0_1_1_n_n.lhsIdx i q 0).val = (q ⟨0, by decide⟩).val :=
  dot_S5000x64_S5000x2_S64x2_0_0_1_1_n_n.lhsIdx_val_of_single rfl i q
theorem lhs_poolDot_1 (i : S64x2.Idx) (q : dot_S5000x64_S5000x2_S64x2_0_0_1_1_n_n.contr.Idx) :
    (dot_S5000x64_S5000x2_S64x2_0_0_1_1_n_n.lhsIdx i q 1).val = (i 0).val := by
  unfold DotDims.lhsIdx
  rw [dif_neg (show ¬(1 : Fin S5000x64.rank) ∈ dot_S5000x64_S5000x2_S64x2_0_0_1_1_n_n.lhsBatch by decide), dif_pos (show (1 : Fin S5000x64.rank) ∈ dot_S5000x64_S5000x2_S64x2_0_0_1_1_n_n.lhsNonContracting by decide)]
  rfl
/-- … and the right operand at (contraction row, output column). -/
theorem rhs_poolDot_0 (i : S64x2.Idx) (q : dot_S5000x64_S5000x2_S64x2_0_0_1_1_n_n.contr.Idx) :
    (dot_S5000x64_S5000x2_S64x2_0_0_1_1_n_n.rhsIdx i q 0).val = (q ⟨0, by decide⟩).val :=
  dot_S5000x64_S5000x2_S64x2_0_0_1_1_n_n.rhsIdx_val_of_single rfl i q
theorem rhs_poolDot_1 (i : S64x2.Idx) (q : dot_S5000x64_S5000x2_S64x2_0_0_1_1_n_n.contr.Idx) :
    (dot_S5000x64_S5000x2_S64x2_0_0_1_1_n_n.rhsIdx i q 1).val = (i 1).val := by
  unfold DotDims.rhsIdx
  rw [dif_neg (show ¬(1 : Fin S5000x2.rank) ∈ dot_S5000x64_S5000x2_S64x2_0_0_1_1_n_n.rhsBatch by decide), dif_pos (show (1 : Fin S5000x2.rank) ∈ dot_S5000x64_S5000x2_S64x2_0_0_1_1_n_n.rhsNonContracting by decide)]
  rfl

/-- The membership entry as a number: the bit of "the two words are equal", widened and converted, is 1 or 0. -/
theorem member_word (a b : BitVec 32) :
    (FloatOps.sitofp (F := Ideal) .f32 ((IntOp.cmpi .eq a b).setWidth 32) : EReal) = if a = b then 1 else 0 := by
  by_cases h : a = b
  · subst h
    rw [if_pos rfl, show IntOp.cmpi .eq a a = 1#1 from by simp [IntOp.cmpi]]
    show (((((1#1 : BitVec 1).setWidth 32).toInt : ℤ) : ℝ) : EReal) = 1
    rw [show ((1#1 : BitVec 1).setWidth 32).toInt = 1 from by decide]
    norm_num
  · rw [if_neg h, show IntOp.cmpi .eq a b = 0#1 from by
      show BitVec.ofBool (a == b) = 0#1
      rw [beq_eq_false_iff_ne.mpr h]; rfl]
    show (((((0#1 : BitVec 1).setWidth 32).toInt : ℤ) : ℝ) : EReal) = 0
    rw [show ((0#1 : BitVec 1).setWidth 32).toInt = 0 from by decide]
    norm_num

/-- The membership matrix of a block at (row r, graph g): 1 when the row's batch word is the word of g. -/
theorem member_apply (x3 : Vec Ideal S5000x1 .i32) (r : Fin 5000) (g : Fin 64) :
    (sitofp (F := Ideal) .f32 (extui 32 (cmpi .eq
        (broadcastTo S5000x64 (shapeCast S5000x1 x3 shapeCasts_S5000x1_S5000x1) broadcasts_S5000x1_S5000x64)
        (iota .tc S5000x64 32 [1] iota_S5000x64_d1_w32)) natLt_1_32) : S5000x64.Idx → EReal) (ix2 r g)
      = if (x3 (ix2 r 0) : BitVec 32) = BitVec.ofNat 32 g.val then 1 else 0 := by
  have e1 : broadcastTo S5000x64 (shapeCast S5000x1 x3 shapeCasts_S5000x1_S5000x1) broadcasts_S5000x1_S5000x64 (ix2 r g)
      = x3 (ix2 r 0) := by
    rw [shapeCast_self]
    exact broadcastTo_apply x3 broadcasts_S5000x1_S5000x64 (ix2 r g) (ix2 r 0) (fun a => by
      match a with
      | ⟨0, _⟩ => rfl
      | ⟨1, _⟩ => rfl)
  have e2 : iota .tc S5000x64 32 [1] iota_S5000x64_d1_w32 (ix2 r g) = BitVec.ofNat 32 g.val :=
    iota_single_apply .tc S5000x64 32 1 iota_S5000x64_d1_w32 (ix2 r g)
  show FloatOps.sitofp (F := Ideal) .f32 ((IntOp.cmpi .eq
      (broadcastTo S5000x64 (shapeCast S5000x1 x3 shapeCasts_S5000x1_S5000x1) broadcasts_S5000x1_S5000x64 (ix2 r g))
      (iota .tc S5000x64 32 [1] iota_S5000x64_d1_w32 (ix2 r g))).setWidth 32) = _
  rw [e1, e2]
  exact member_word _ _

/-- A block's rows scaled and biased, at (row r, column j). -/
theorem rows_apply (x0 : Vec Ideal S5000x2 .f32) (x1 : Vec Ideal S5000x1 .f32) (x2 : Vec Ideal S1x2 .f32)
    (r : Fin 5000) (j : Fin 2) :
    (addf (mulf (shapeCast S5000x2 x0 shapeCasts_S5000x2_S5000x2)
          (broadcastTo S5000x2 (shapeCast S5000x1 x1 shapeCasts_S5000x1_S5000x1) broadcasts_S5000x1_S5000x2))
        (broadcastTo S5000x2 (shapeCast S1x2 x2 shapeCasts_S1x2_S1x2) broadcasts_S1x2_S5000x2) : FVec Ideal S5000x2 .f32) (ix2 r j)
      = (x0 (ix2 r j) : EReal) * (x1 (ix2 r 0) : EReal) + (x2 (ix2 0 j) : EReal) := by
  rw [shapeCast_self, shapeCast_self, shapeCast_self]
  have e1 : broadcastTo S5000x2 x1 broadcasts_S5000x1_S5000x2 (ix2 r j) = x1 (ix2 r 0) :=
    broadcastTo_apply x1 broadcasts_S5000x1_S5000x2 (ix2 r j) (ix2 r 0) (fun a => by
      match a with
      | ⟨0, _⟩ => rfl
      | ⟨1, _⟩ => rfl)
  have e2 : broadcastTo S5000x2 x2 broadcasts_S1x2_S5000x2 (ix2 r j) = x2 (ix2 0 j) :=
    broadcastTo_apply x2 broadcasts_S1x2_S5000x2 (ix2 r j) (ix2 0 j) (fun a => by
      match a with
      | ⟨0, _⟩ => rfl
      | ⟨1, _⟩ => rfl)
  show (x0 (ix2 r j) : EReal) * broadcastTo S5000x2 x1 broadcasts_S5000x1_S5000x2 (ix2 r j)
      + broadcastTo S5000x2 x2 broadcasts_S1x2_S5000x2 (ix2 r j) = _
  rw [e1, e2]

/-- The update at (g, j): what the block held there plus, over the block's rows whose batch word is the word of g, the
    row's scaled and biased entry j. -/
theorem update_apply (x0 : Vec Ideal S5000x2 .f32) (x1 : Vec Ideal S5000x1 .f32) (x2 : Vec Ideal S1x2 .f32)
    (x3 : Vec Ideal S5000x1 .i32) (xo : Vec Ideal S64x2 .f32) (g : Fin 64) (j : Fin 2) :
    (k2_pay2 (F := Ideal) x0 x1 x2 x3 xo : S64x2.Idx → EReal) (ix2 g j)
      = (xo (ix2 g j) : EReal) + ∑ r : Fin 5000, (if (x3 (ix2 r 0) : BitVec 32) = BitVec.ofNat 32 g.val
          then (x0 (ix2 r j) : EReal) * (x1 (ix2 r 0) : EReal) + (x2 (ix2 0 j) : EReal) else 0) := by
  unfold k2_pay2
  dsimp only
  refine (addf_apply _ _ _).trans ?_
  rw [shapeCast_self xo]
  refine congrArg (fun z : EReal => (xo (ix2 g j) : EReal) + z) ?_
  simp only [matmul]
  rw [Ideal.matmul_constant_zero_apply,
    ← Equiv.sum_comp (contrEquiv1 dot_S5000x64_S5000x2_S64x2_0_0_1_1_n_n 5000 rfl rfl).symm]
  refine Finset.sum_congr rfl fun r _ => ?_
  have hk := contrEquiv1_symm_val dot_S5000x64_S5000x2_S64x2_0_0_1_1_n_n 5000 rfl rfl r
  have el : dot_S5000x64_S5000x2_S64x2_0_0_1_1_n_n.lhsIdx (ix2 g j)
      ((contrEquiv1 dot_S5000x64_S5000x2_S64x2_0_0_1_1_n_n 5000 rfl rfl).symm r) = ix2 r g :=
    funext fun a => Fin.ext (by
      match a with
      | ⟨0, _⟩ => exact (lhs_poolDot_0 _ _).trans hk
      | ⟨1, _⟩ => exact lhs_poolDot_1 _ _)
  have er : dot_S5000x64_S5000x2_S64x2_0_0_1_1_n_n.rhsIdx (ix2 g j)
      ((contrEquiv1 dot_S5000x64_S5000x2_S64x2_0_0_1_1_n_n 5000 rfl rfl).symm r) = ix2 r j :=
    funext fun a => Fin.ext (by
      match a with
      | ⟨0, _⟩ => exact (rhs_poolDot_0 _ _).trans hk
      | ⟨1, _⟩ => exact rhs_poolDot_1 _ _)
  rw [el, er, member_apply, rows_apply]
  split
  · rw [one_mul]
  · rw [zero_mul]

end Payload

/-! ## The blocks are rows of the arrays, and the running sum over the points -/

section Blocks

/-- The four input blocks at a point, by their literal types. -/
abbrev aggBlk (c : Dev nD) (t : Fin cfg2.N) : Vec Ideal S5000x2 .f32 := iblk2 V c 0 t
abbrev dinvBlk (c : Dev nD) (t : Fin cfg2.N) : Vec Ideal S5000x1 .f32 := iblk2 V c 1 t
abbrev biasBlk (c : Dev nD) (t : Fin cfg2.N) : Vec Ideal S1x2 .f32 := iblk2 V c 2 t
abbrev batchBlk (c : Dev nD) (t : Fin cfg2.N) : Vec Ideal S5000x1 .i32 := iblk2 V c 3 t

/-- The four arrays, by their literal types. -/
abbrev aggArr (c : Dev nD) : Cert.Spec.A2 50000 2 := V c main_v37
abbrev dinvArr (c : Dev nD) : Cert.Spec.A2 50000 1 := V c main_v12
abbrev biasArr (c : Dev nD) : Cert.Spec.A2 1 2 := V c main_v14
abbrev batchArr (c : Dev nD) : Cert.Spec.I2 50000 1 := V c main_v15

/-- Where each window's block sits at point t: the row windows at block row t, the bias row and the output at the
    origin — decided over the grid. -/
theorem blockIdx : ∀ t : Fin cfg2.N,
    win2_0.index t 0 = t.val ∧ win2_0.index t 1 = 0 ∧ win2_1.index t 0 = t.val ∧ win2_1.index t 1 = 0
    ∧ win2_2.index t 0 = 0 ∧ win2_2.index t 1 = 0 ∧ win2_3.index t 0 = t.val ∧ win2_3.index t 1 = 0 :=
  (by decide +kernel : ∀ t : Fin grid2.N,
    win2_0.index t 0 = t.val ∧ win2_0.index t 1 = 0 ∧ win2_1.index t 0 = t.val ∧ win2_1.index t 1 = 0
    ∧ win2_2.index t 0 = 0 ∧ win2_2.index t 1 = 0 ∧ win2_3.index t 0 = t.val ∧ win2_3.index t 1 = 0)

/-- Row r of block t is row 5000 t + r of the array. -/
def rowOf (t : Fin cfg2.N) (r : Fin 5000) : Fin 50000 :=
  ⟨5000 * t.val + r.val, by have := t.isLt; have hN : cfg2.N = 10 := N_2; have := r.isLt; omega⟩

theorem aggBlk_apply (c : Dev nD) (t : Fin cfg2.N) (r : Fin 5000) (j : Fin 2) :
    aggBlk V c t (ix2 r j) = aggArr V c (ix2 (rowOf t r) j) := by
  show iblk2 V c 0 t (ix2 r j) = _
  unfold iblk2
  rw [View.read_apply]
  show V c main_v37 _ = V c main_v37 _
  congr 1
  funext a
  apply Fin.ext
  match a with
  | ⟨0, _⟩ => show win2_0.index t 0 * 5000 + 1 * r.val = 5000 * t.val + r.val; rw [(blockIdx t).1]; omega
  | ⟨1, _⟩ => show win2_0.index t 1 * 2 + 1 * j.val = j.val; rw [(blockIdx t).2.1]; omega

theorem dinvBlk_apply (c : Dev nD) (t : Fin cfg2.N) (r : Fin 5000) :
    dinvBlk V c t (ix2 r 0) = dinvArr V c (ix2 (rowOf t r) 0) := by
  show iblk2 V c 1 t (ix2 r 0) = _
  unfold iblk2
  rw [View.read_apply]
  show V c main_v12 _ = V c main_v12 _
  congr 1
  funext a
  apply Fin.ext
  match a with
  | ⟨0, _⟩ => show win2_1.index t 0 * 5000 + 1 * r.val = 5000 * t.val + r.val; rw [(blockIdx t).2.2.1]; omega
  | ⟨1, _⟩ => show win2_1.index t 1 * 1 + 1 * 0 = 0; rw [(blockIdx t).2.2.2.1]

theorem biasBlk_apply (c : Dev nD) (t : Fin cfg2.N) (j : Fin 2) :
    biasBlk V c t (ix2 0 j) = biasArr V c (ix2 0 j) := by
  show iblk2 V c 2 t (ix2 0 j) = _
  unfold iblk2
  rw [View.read_apply]
  show V c main_v14 _ = V c main_v14 _
  congr 1
  funext a
  apply Fin.ext
  match a with
  | ⟨0, _⟩ => show win2_2.index t 0 * 1 + 1 * 0 = 0; rw [(blockIdx t).2.2.2.2.1]
  | ⟨1, _⟩ => show win2_2.index t 1 * 2 + 1 * j.val = j.val; rw [(blockIdx t).2.2.2.2.2.1]; omega

theorem batchBlk_apply (c : Dev nD) (t : Fin cfg2.N) (r : Fin 5000) :
    batchBlk V c t (ix2 r 0) = batchArr V c (ix2 (rowOf t r) 0) := by
  show iblk2 V c 3 t (ix2 r 0) = _
  unfold iblk2
  rw [View.read_apply]
  show V c main_v15 _ = V c main_v15 _
  congr 1
  funext a
  apply Fin.ext
  match a with
  | ⟨0, _⟩ => show win2_3.index t 0 * 5000 + 1 * r.val = 5000 * t.val + r.val; rw [(blockIdx t).2.2.2.2.2.2.1]; omega
  | ⟨1, _⟩ => show win2_3.index t 1 * 1 + 1 * 0 = 0; rw [(blockIdx t).2.2.2.2.2.2.2]

/-- What row i of the arrays adds to entry (g, j). -/
def rowTerm (c : Dev nD) (g : Fin 64) (j : Fin 2) (i : Fin 50000) : EReal :=
  if batchArr V c (ix2 i 0) = BitVec.ofNat 32 g.val then aggArr V c (ix2 i j) * dinvArr V c (ix2 i 0) + biasArr V c (ix2 0 j) else 0

/-- What block t adds to entry (g, j): its 5000 rows' terms. -/
def blockTerm (c : Dev nD) (g : Fin 64) (j : Fin 2) (t : Fin cfg2.N) : EReal :=
  ∑ r : Fin 5000, rowTerm V c g j (rowOf t r)

/-- The update over block t's inputs adds block t's term. -/
theorem update_block (c : Dev nD) (t : Fin cfg2.N) (xo : Vec Ideal S64x2 .f32) (g : Fin 64) (j : Fin 2) :
    (k2_pay2 (F := Ideal) (aggBlk V c t) (dinvBlk V c t) (biasBlk V c t) (batchBlk V c t) xo : S64x2.Idx → EReal) (ix2 g j)
      = (xo (ix2 g j) : EReal) + blockTerm V c g j t := by
  rw [update_apply]
  refine congrArg (fun z : EReal => (xo (ix2 g j) : EReal) + z) ?_
  unfold blockTerm rowTerm
  refine Finset.sum_congr rfl fun r _ => ?_
  rw [aggBlk_apply, dinvBlk_apply, biasBlk_apply, batchBlk_apply]

/-- After the first point entry (g, j) of the output block is block 0's term. -/
theorem outsAt_first (c : Dev nD) (t : Fin cfg2.N) (h0 : t.val % 10 = 0) (g : Fin 64) (j : Fin 2) :
    (outsAt2 V c t.val t.isLt : S64x2.Idx → EReal) (ix2 g j) = blockTerm V c g j t := by
  rw [outsAt2_A V c t h0]
  refine (congrFun (first_piece (F := Ideal) c (grid2.coords t) (ms2_0 t) (hs2_0 t) (ms2_1 t) (hs2_1 t) (ms2_2 t) (hs2_2 t)
    (ms2_3 t) (hs2_3 t) (ms2_4 t) (hs2_4 t) ((hcond2_0 t).mpr h0) (aggBlk V c t) (dinvBlk V c t) (biasBlk V c t)
    (batchBlk V c t)) (ix2 g j)).trans ?_
  rw [update_block]
  have z : (k2_pay1 (F := Ideal) : S64x2.Idx → EReal) (ix2 g j) = 0 := Ideal.ofBits_zero_f32
  rw [z, zero_add]

/-- After a later point it is what the point before left plus this block's term. -/
theorem outsAt_later (c : Dev nD) (t : Fin cfg2.N) (h0 : ¬t.val % 10 = 0) (g : Fin 64) (j : Fin 2) :
    (outsAt2 V c t.val t.isLt : S64x2.Idx → EReal) (ix2 g j)
      = (outsAt2 V c (t.val - 1) (Nat.lt_of_le_of_lt (Nat.sub_le _ _) t.isLt) : S64x2.Idx → EReal) (ix2 g j)
        + blockTerm V c g j t := by
  rw [outsAt2_B V c t h0]
  refine (congrFun (later_piece (F := Ideal) c (grid2.coords t) (ms2_0 t) (hs2_0 t) (ms2_1 t) (hs2_1 t) (ms2_2 t) (hs2_2 t)
    (ms2_3 t) (hs2_3 t) (ms2_4 t) (hs2_4 t) (fun h => h0 ((hcond2_0 t).mp h)) (aggBlk V c t) (dinvBlk V c t) (biasBlk V c t)
    (batchBlk V c t) (outsAt2 V c (t.val - 1) (Nat.lt_of_le_of_lt (Nat.sub_le _ _) t.isLt))) (ix2 g j)).trans ?_
  rw [update_block]

/-- So after point n it is the sum of the terms of blocks 0 … n. -/
theorem outsAt_apply (c : Dev nD) (g : Fin 64) (j : Fin 2) : ∀ (n : ℕ) (hn : n < cfg2.N),
    (outsAt2 V c n hn : S64x2.Idx → EReal) (ix2 g j)
      = ∑ s : Fin (n + 1), blockTerm V c g j ⟨s.val, Nat.lt_of_lt_of_le s.isLt (Nat.succ_le_of_lt hn)⟩
  | 0, hn => by
    rw [Fin.sum_univ_one]
    exact outsAt_first V c ⟨0, hn⟩ rfl g j
  | n + 1, hn => by
    have hN : cfg2.N = 10 := N_2
    have hB : ¬(⟨n + 1, hn⟩ : Fin cfg2.N).val % 10 = 0 := by dsimp only; omega
    rw [Fin.sum_univ_castSucc]
    refine (outsAt_later V c ⟨n + 1, hn⟩ hB g j).trans ?_
    show (outsAt2 V c n _ : S64x2.Idx → EReal) (ix2 g j) + _ = _
    rw [outsAt_apply c g j n (Nat.lt_of_succ_lt hn)]
    rfl

end Blocks

/-! ## The array after the last point -/

section Final

/-- A sum over the 50000 rows, block by block. -/
theorem sum_rows (f : Fin 50000 → EReal) :
    ∑ i : Fin 50000, f i = ∑ s : Fin 10, ∑ r : Fin 5000, f ⟨5000 * s.val + r.val, by have := s.isLt; have := r.isLt; omega⟩ := by
  rw [← Equiv.sum_comp (finProdFinEquiv (m := 10) (n := 5000)) f, Fintype.sum_prod_type]
  refine Finset.sum_congr rfl fun s _ => Finset.sum_congr rfl fun r _ => congrArg f (Fin.ext ?_)
  show r.val + 5000 * s.val = 5000 * s.val + r.val
  omega

/-- What the last point leaves in the output block, as contents of the output array (its one block is the array). -/
abbrev lastBlock (c : Dev nD) : Buf (Elt Ideal) ((c : Thread nD τ).loc main_v38) :=
  outsAt2 V c 9 (by rw [show cfg2.N = 10 from N_2]; decide)

/-- The one write-back, at the last point, writes it: block (0, 0) of the 64x2 array is the array. -/
theorem flushed_last (c : Dev nD) (t : Fin cfg2.N) (hf : (cfg2.win 4).flush t = true) :
    (dat2 V c).flushed 4 t = ((cfg2.win 4).blk t).view.read (Elt Ideal) (lastBlock V c) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4]
  have hz' : (fun a => win2_4.index t2_9 a * main_v38.ty.shape.size a) = fun _ => 0 := funext fun a => by
    match a with
    | ⟨0, _⟩ => show win2_4.index t2_9 0 * main_v38.ty.shape.size 0 = 0; decide +kernel
    | ⟨1, _⟩ => show win2_4.index t2_9 1 * main_v38.ty.shape.size 1 = 0; decide +kernel
  exact (Memref.read_access_unit_zero (Elt Ideal) main_v38 hz' (fun a => by rw [congrFun hz' a]; simp) (lastBlock V c)).symm

/-- So the output array ends holding what the last point left. -/
theorem final_eq (c : Dev nD) : (dat2 V c).arrAt 4 cfg2.N = lastBlock V c :=
  (dat2 V c).arrAt_eq_of_cover 4 (lastBlock V c) (flushed_last V c) fun i =>
    ⟨t2_9, (flush2_4 t2_9).mpr rfl, by
      show i ∈ ((View.whole main_v38).slice (win2_4.rect t2_9)).set
      rw [View.set_slice_whole, Rect.mem_set_unit]
      intro a
      have h0 : (i 0 : Nat) < 64 := (i 0).isLt
      have h1 : (i 1 : Nat) < 2 := (i 1).isLt
      match a with
      | ⟨0, _⟩ =>
        show win2_4.index t2_9 0 * win2_4.size 0 ≤ (i 0 : Nat) ∧ (i 0 : Nat) < win2_4.index t2_9 0 * win2_4.size 0 + win2_4.xsize (grid2.coords t2_9) 0
        rw [show win2_4.index t2_9 0 * win2_4.size 0 = 0 from by decide +kernel, show win2_4.xsize (grid2.coords t2_9) 0 = 64 from by decide +kernel]; omega
      | ⟨1, _⟩ =>
        show win2_4.index t2_9 1 * win2_4.size 1 ≤ (i 1 : Nat) ∧ (i 1 : Nat) < win2_4.index t2_9 1 * win2_4.size 1 + win2_4.xsize (grid2.coords t2_9) 1
        rw [show win2_4.index t2_9 1 * win2_4.size 1 = 0 from by decide +kernel, show win2_4.xsize (grid2.coords t2_9) 1 = 2 from by decide +kernel]; omega⟩

/-- The pooling kernel's output array at (g, j): the sum, over the rows whose batch word is the word of
    g, of the scaled and biased entry j of the row. -/
theorem region2_value (c : Dev nD) (g : Fin 64) (j : Fin 2) :
    ((dat2 (F := Ideal) V c).arrAt 4 cfg2.N : S64x2.Idx → EReal) (ix2 g j)
      = Cert.Spec.pool (V c main_v37) (V c main_v12) (V c main_v14) (V c main_v15) g j := by
  rw [final_eq]
  refine (outsAt_apply V c g j 9 (by rw [show cfg2.N = 10 from N_2]; decide)).trans ?_
  unfold Cert.Spec.pool
  rw [sum_rows]
  rfl

end Final

end Cert.KernelIdeal.RegionValue

end
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1
import proofs.«420345_j67774583930931_2_alg».proof.Proof.Spec

noncomputable section

open scoped BigOperators

namespace Cert.LibRows

open Idealize.ShloMosaic Idealize.ShloMosaic.ValueIdx

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (Cert.Spec.landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? Cert.Spec.landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (Cert.Spec.landIx N (idx (ix2 e 0))).map ix1 := by
  have h0 := vec_start0 d huw hiw hsd hivd idx e
  have w0 := vec_window0 d huw hiw hsd hivd e
  unfold ScatterDims.resultIdx? Cert.Spec.landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => Cert.Spec.landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (Cert.Spec.landIx N (idx (ix2 e 0)) = some n ∧ j' = j) := by
    intro e j'
    rw [rows_resultIdx d huw hiw hsd hivd idx e j']
    cases hL : Cert.Spec.landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : Cert.Spec.landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => Cert.Spec.landIx N (idx (ix2 e 0)) = some n), upd (ix1 e) := by
  have key : ∀ (e : Fin E), d.resultIdx? (ix1 e) idx = some (ix1 n)
      ↔ Cert.Spec.landIx N (idx (ix2 e 0)) = some n := by
    intro e
    rw [vec_resultIdx d huw hiw hsd hivd idx e]
    cases hL : Cert.Spec.landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : Cert.Spec.landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => Cert.Spec.landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => Cert.Spec.landIx N (idx (ix2 e 0)) = some n), upd (ix1 e) :=
  scatterAdd_vec d huw hiw hsd hivd x idx upd n

end Cert.LibRows

end
-- ==== Proof.LibGatherVec.lean ====
/-
  A gather of scalars from a vector, read at an index.

  A vector of N entries is read through a column of E integer index words: result entry e is the
  vector's entry at the e-th word, the word read as a signed integer and clamped into [0, N - 1].
  Stated for arbitrary extents, from the dimension numbers alone; the rank-1 companion of the row
  gather.
-/
import Idealize.ShloMosaic.PureOps.Ideal
import Idealize.ShloMosaic.Lib.ValueIdx
import Idealize.ShloMosaic.Lib.ValueIdxRank1

noncomputable section

namespace Cert.LibVec

open Idealize.ShloMosaic Idealize.ShloMosaic.ValueIdx

/-- A scalar gather read at e: the vector's entry at the e-th start index, that index read as a signed
    integer and clamped into [0, N - 1]. -/
theorem gather_vec {α : Type} {N E w : Nat} (hN : 0 < N) (d : GatherDims ⟨1, ![N]⟩ ⟨2, ![E, 1]⟩ ⟨1, ![E]⟩)
    (hoff : d.offsetDims = []) (hcoll : d.collapsedSliceDims = [0]) (hob : d.operandBatchingDims = []) (hsb : d.startIndicesBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the one axis is collapsed: only the clamped start index counts, and the slice there has one entry
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result e is read at (e, 0)
      funext b
      apply Fin.ext
      match b with
      | ⟨0, _⟩ => rfl
      | ⟨1, _⟩ => rfl
    · next hn => exact absurd (List.mem_singleton.mpr rfl) hn

end Cert.LibVec

end
-- ==== Proof.Layer.lean ====
/-
  One graph-convolution layer's aggregation, in the two groupings the two programs use.

  The edges that land at node n are those whose destination word names n (`lands`); edge e reads the
  row its source word names, wrapped and clamped (`rdRow`). One program scales each gathered row by
  dinv(source) · dinv(destination) before adding it into row n; the other scales the rows by
  dinv(row) before the gather and the sum by dinv(n) afterwards. Every edge that lands at n has
  destination n, so the second factor is the same in every term; it is the inverse square root of the
  number of edges landing at n, a non-negative real whenever there is such an edge, and so comes out of
  the sum.
-/
import proofs.«420345_j67774583930931_2_alg».proof.Proof.Spec
import proofs.«420345_j67774583930931_2_alg».proof.Proof.LibGatherScatterRows
import proofs.«420345_j67774583930931_2_alg».proof.Proof.LibGatherVec

noncomputable section

open scoped BigOperators

namespace Cert.Layer

open Idealize.ShloMosaic Idealize.ShloMosaic.ValueIdx Cert.Spec

/-- The edges whose destination word lands at node n. -/
def lands {E : Nat} (N : Nat) (dcol : IVec ⟨2, ![E, 1]⟩ 32) (n : Fin N) : Finset (Fin E) :=
  Finset.univ.filter (fun e : Fin E => landIx N (dcol (ix2 e 0)) = some n)

/-- The row edge e's index word reads in a table of N rows. -/
def rdRow {E : Nat} (N : Nat) (hN : 0 < N) (col : IVec ⟨2, ![E, 1]⟩ 32) (e : Fin E) : Fin N :=
  clampIx N hN (col (ix2 e 0))

/-- A scalar gather read at edge e: the vector's entry at the row the e-th word reads. -/
theorem gather_vec_rd {N E : Nat} (hN : 0 < N) (d : GatherDims ⟨1, ![N]⟩ ⟨2, ![E, 1]⟩ ⟨1, ![E]⟩)
    (hoff : d.offsetDims = []) (hcoll : d.collapsedSliceDims = [0]) (hob : d.operandBatchingDims = []) (hsb : d.startIndicesBatchingDims = [])
    (hsim : d.startIndexMap = [0]) (hivd : d.indexVectorDim = 1)
    (x : (⟨1, ![N]⟩ : Shape).Idx → EReal) (idx : IVec ⟨2, ![E, 1]⟩ 32) (e : Fin E) :
    Host.gather d x idx (ix1 e) = x (ix1 (rdRow N hN idx e)) :=
  Cert.LibVec.gather_vec hN d hoff hcoll hob hsb hsim hivd x idx e

section
variable {N E C : Nat} (hN : 0 < N)
  (dS : ScatterDims ⟨2, ![N, C]⟩ ⟨2, ![E, 1]⟩ ⟨2, ![E, C]⟩)
  (huw : dS.updateWindowDims = [1]) (hiw : dS.insertedWindowDims = [0]) (hsd : dS.scatterDimsToOperandDims = [0]) (hivd : dS.indexVectorDim = 1)
  (dG : GatherDims ⟨2, ![N, C]⟩ ⟨2, ![E, 1]⟩ ⟨2, ![E, C]⟩)
  (hoff : dG.offsetDims = [1]) (hcoll : dG.collapsedSliceDims = [0]) (hob : dG.operandBatchingDims = []) (hsb : dG.startIndicesBatchingDims = [])
  (hsim : dG.startIndexMap = [0]) (hgivd : dG.indexVectorDim = 1)
  (dcol scol : IVec ⟨2, ![E, 1]⟩ 32)
  (z : FVec Ideal ⟨2, ![N, C]⟩ .f32) (hz : ∀ i, z i = 0)
include huw hiw hsd hivd hoff hcoll hob hsb hsim hgivd hz

/-- Gathered rows added by destination, read at (n, j): the sum over the edges landing at n of the
    source row's entry j. -/
theorem aggK_apply (y : FVec Ideal ⟨2, ![N, C]⟩ .f32) (n : Fin N) (j : Fin C) :
    Host.scatterAdd (F := Ideal) dS z dcol (Host.gather dG y scol) (ix2 n j)
      = ∑ e ∈ lands N dcol n, y (ix2 (rdRow N hN scol e) j) := by
  rw [Cert.LibRows.scatterAdd_rows' dS huw hiw hsd hivd, hz, zero_add]
  refine Finset.sum_congr rfl fun e _ => ?_
  exact Cert.LibRows.gather_rows hN dG hoff hcoll hob hsb hsim hgivd y scol e j

/-- Gathered rows scaled edge by edge and added by destination, read at (n, j). -/
theorem aggR_apply (h : FVec Ideal ⟨2, ![N, C]⟩ .f32) (sc : FVec Ideal ⟨2, ![E, C]⟩ .f32) (n : Fin N) (j : Fin C) :
    Host.scatterAdd (F := Ideal) dS z dcol (mulf (Host.gather dG h scol) sc) (ix2 n j)
      = ∑ e ∈ lands N dcol n, h (ix2 (rdRow N hN scol e) j) * sc (ix2 e j) := by
  rw [Cert.LibRows.scatterAdd_rows' dS huw hiw hsd hivd, hz, zero_add]
  refine Finset.sum_congr rfl fun e _ => ?_
  rw [mulf_apply]
  exact congrArg (· * sc (ix2 e j)) (Cert.LibRows.gather_rows hN dG hoff hcoll hob hsb hsim hgivd h scol e j)

/-- The two groupings agree: scaling each gathered row by dv(source) · dv(destination) and adding by
    destination is adding the rows pre-scaled by their own dv and scaling row n of the sum by dv n. -/
theorem layer_eq (h y : FVec Ideal ⟨2, ![N, C]⟩ .f32) (sc : FVec Ideal ⟨2, ![E, C]⟩ .f32) (dv : Fin N → EReal) (cd : Fin E → Fin N)
    (hsc : ∀ e j, sc (ix2 e j) = dv (rdRow N hN scol e) * dv (cd e))
    (hcd : ∀ e n, landIx N (dcol (ix2 e 0)) = some n → cd e = n)
    (hdv : ∀ n, (lands N dcol n).Nonempty → 0 ≤ dv n ∧ dv n ≠ ⊤)
    (hy : ∀ m j, y (ix2 m j) = h (ix2 m j) * dv m) (n : Fin N) (j : Fin C) :
    Host.scatterAdd (F := Ideal) dS z dcol (mulf (Host.gather dG h scol) sc) (ix2 n j)
      = Host.scatterAdd (F := Ideal) dS z dcol (Host.gather dG y scol) (ix2 n j) * dv n := by
  rw [aggR_apply hN dS huw hiw hsd hivd dG hoff hcoll hob hsb hsim hgivd dcol scol z hz,
    aggK_apply hN dS huw hiw hsd hivd dG hoff hcoll hob hsb hsim hgivd dcol scol z hz]
  calc ∑ e ∈ lands N dcol n, h (ix2 (rdRow N hN scol e) j) * sc (ix2 e j)
      = ∑ e ∈ lands N dcol n, h (ix2 (rdRow N hN scol e) j) * (dv (rdRow N hN scol e) * dv n) := by
        refine Finset.sum_congr rfl fun e he => ?_
        have hl : landIx N (dcol (ix2 e 0)) = some n := (Finset.mem_filter.mp he).2
        rw [hsc, hcd e n hl]
    _ = (∑ e ∈ lands N dcol n, h (ix2 (rdRow N hN scol e) j) * dv (rdRow N hN scol e)) * dv n :=
        sum_mul_factor (lands N dcol n) (fun e => h (ix2 (rdRow N hN scol e) j)) (fun e => dv (rdRow N hN scol e)) (dv n) (hdv n)
    _ = (∑ e ∈ lands N dcol n, y (ix2 (rdRow N hN scol e) j)) * dv n := by
        refine congrArg (· * dv n) (Finset.sum_congr rfl fun e _ => ?_)
        rw [hy]

end

/-! ## The degree and its inverse square root -/

/-- Adding one k times gives the real number k. -/
theorem nsmul_one_ereal (k : ℕ) : k • (1 : EReal) = (((k : ℝ)) : EReal) := by
  induction k with
  | zero => simp
  | succ k ih =>
    rw [succ_nsmul, ih, ← EReal.coe_one, ← EReal.coe_add]
    push_cast
    rfl

section
variable {N E : Nat}
  (dV : ScatterDims ⟨1, ![N]⟩ ⟨2, ![E, 1]⟩ ⟨1, ![E]⟩)
  (huw : dV.updateWindowDims = []) (hiw : dV.insertedWindowDims = [0]) (hsd : dV.scatterDimsToOperandDims = [0]) (hivd : dV.indexVectorDim = 1)
  (dcol : IVec ⟨2, ![E, 1]⟩ 32)
  (z : FVec Ideal ⟨1, ![N]⟩ .f32) (hz : ∀ i, z i = 0)
  (one : FVec Ideal ⟨1, ![E]⟩ .f32) (hone : ∀ i, one i = 1)
include huw hiw hsd hivd hz hone

/-- A count of ones added by destination, read at n: the number of edges landing at n. -/
theorem deg_apply (n : Fin N) :
    Host.scatterAdd (F := Ideal) dV z dcol one (ix1 n) = (((lands N dcol n).card : ℝ) : EReal) := by
  rw [Cert.LibRows.scatterAdd_vec' dV huw hiw hsd hivd, hz, zero_add]
  rw [Finset.sum_congr rfl (fun e _ => hone (ix1 e))]
  show ∑ e ∈ lands N dcol n, (1 : EReal) = _
  rw [Finset.sum_const]
  exact nsmul_one_ereal _

/-- Where an edge lands, the inverse square root of the count is a non-negative real. -/
theorem dinv_fin (n : Fin N) (hne : (lands N dcol n).Nonempty) :
    0 ≤ Ideal.rsqrt (Host.scatterAdd (F := Ideal) dV z dcol one (ix1 n))
      ∧ Ideal.rsqrt (Host.scatterAdd (F := Ideal) dV z dcol one (ix1 n)) ≠ ⊤ := by
  rw [deg_apply dV huw hiw hsd hivd dcol z hz one hone n]
  exact rsqrt_natCast (Finset.card_pos.mpr hne)

end

end Cert.Layer

end
-- ==== Proof.RefIndex.lean ====
/-
  The reference program's index arrays and its per-edge scale, read at an edge.

  Both programs build the same two edge columns from the edge list: the destination words as they are
  (a scatter takes them) and the source words with a negative one wrapped by the node count (a gather
  takes them). The reference also gathers dinv by the wrapped DESTINATION words. An edge that lands at
  node n has a destination word in [0, N), which the wrap leaves alone and the clamp leaves alone: it
  reads dinv at n. dinv itself is the inverse square root of the count of edges landing at a node.
-/
import proofs.«420345_j67774583930931_2_alg».proof.Proof.KernelChain
import proofs.«420345_j67774583930931_2_alg».proof.Proof.Gen.ReferenceIdeal.Read
import proofs.«420345_j67774583930931_2_alg».proof.Proof.Layer
import Idealize.ShloMosaic.Lib.Pipeline.Value

set_option maxRecDepth 16384

noncomputable section

open scoped BigOperators

namespace Cert.Bridge

open Idealize.ShloMosaic Idealize.ShloMosaic.TcCoe Idealize.ShloMosaic.ValueIdx
open Cert.KernelIdeal.Chain Cert.ReferenceIdeal.Read Cert.Spec Cert.Layer

/-- The word 0x3F800000 is the real number one. -/
theorem ofBits_one_f32 : Ideal.ofBits .f32 0x3F800000#32 = 1 := by
  simp [Ideal.ofBits, Ideal.ieee]
  rw [← EReal.coe_mul]
  norm_num

theorem N_pos : 0 < 50000 := by decide

variable (ei : IVec ⟨2, ![2, 800000]⟩ 32)

/-- A node's scale: the inverse square root of its count of incoming edges. -/
def dv (n : Fin 50000) : EReal := Ideal.rsqrt (deg (F := Ideal) ei (ix1 n))

/-! ## The splats of zero and one -/

theorem v8_zero (i : Cert.ReferenceIdeal.S50000.Idx) : val_main_v8 (F := Ideal) i = 0 := by
  rw [val_main_v8_apply, val_main_cst_0_apply]; exact Ideal.ofBits_zero_f32
theorem v7_one (i : Cert.ReferenceIdeal.S850000.Idx) : val_main_v7 (F := Ideal) i = 1 := by
  rw [val_main_v7_apply, val_main_cst_apply]; exact ofBits_one_f32
theorem v38_zero (i : Cert.ReferenceIdeal.S50000x128.Idx) : val_main_v38 (F := Ideal) i = 0 := by
  rw [val_main_v38_apply, val_main_cst_6_apply]; exact Ideal.ofBits_zero_f32
theorem v83_zero (i : Cert.ReferenceIdeal.S50000x2.Idx) : val_main_v83 (F := Ideal) i = 0 := by
  rw [val_main_v83_apply, val_main_cst_15_apply]; exact Ideal.ofBits_zero_f32
theorem v89_zero (i : Cert.ReferenceIdeal.S64x2.Idx) : val_main_v89 (F := Ideal) i = 0 := by
  rw [val_main_v89_apply, val_main_cst_16_apply]; exact Ideal.ofBits_zero_f32

/-! ## dinv is finite where an edge lands -/

theorem dv_fin (n : Fin 50000) (hne : (lands 50000 (dstCol ei) n).Nonempty) : 0 ≤ dv ei n ∧ dv ei n ≠ ⊤ :=
  dinv_fin Cert.ReferenceIdeal.scatter_S50000_S850000x1_S850000_n_0_0_1 rfl rfl rfl rfl (dstCol ei)
    (val_main_v8 (F := Ideal)) v8_zero (val_main_v7 (F := Ideal)) v7_one n hne

/-! ## dinv gathered by an edge column -/

/-- The reference's dinv at node n is the node's scale. -/
theorem v11_at (n : Fin 50000) : val_main_v11 (F := Ideal) ei (ix1 n) = dv ei n := by
  rw [val_main_v11_apply, show val_main_v10 (F := Ideal) ei = deg (F := Ideal) ei from rfl]
  unfold dv
  exact Ideal.hostUnary_rsqrt_def _

/-- dinv gathered by the wrapped source words, at edge e. -/
theorem v18_at (e : Fin 850000) :
    val_main_v18 (F := Ideal) ei (ix1 e) = dv ei (rdRow 50000 N_pos (srcCol ei) e) := by
  unfold val_main_v18
  rw [gather_vec_rd N_pos Cert.ReferenceIdeal.gather_S50000_S850000x1_S850000_n_0_n_n_0_1_1 rfl rfl rfl rfl rfl rfl]
  rw [show val_main_v17 (F := Ideal) ei = srcCol ei from rfl]
  exact v11_at ei _

/-- dinv gathered by the wrapped destination words, at edge e. -/
theorem v25_at (e : Fin 850000) :
    val_main_v25 (F := Ideal) ei (ix1 e) = dv ei (rdRow 50000 N_pos (val_main_v24 (F := Ideal) ei) e) := by
  unfold val_main_v25
  rw [gather_vec_rd N_pos Cert.ReferenceIdeal.gather_S50000_S850000x1_S850000_n_0_n_n_0_1_1 rfl rfl rfl rfl rfl rfl]
  exact v11_at ei _

/-- The second layer's copy of dinv gathered by the wrapped source words, at edge e. -/
theorem v63_at (e : Fin 850000) :
    val_main_v63 (F := Ideal) ei (ix1 e) = dv ei (rdRow 50000 N_pos (srcCol ei) e) := by
  unfold val_main_v63
  rw [gather_vec_rd N_pos Cert.ReferenceIdeal.gather_S50000_S850000x1_S850000_n_0_n_n_0_1_1 rfl rfl rfl rfl rfl rfl]
  rw [show val_main_v62 (F := Ideal) ei = srcCol ei from rfl, show val_main_v56 (F := Ideal) ei = val_main_v11 (F := Ideal) ei from rfl]
  exact v11_at ei _

/-- The second layer's copy of dinv gathered by the wrapped destination words, at edge e. -/
theorem v70_at (e : Fin 850000) :
    val_main_v70 (F := Ideal) ei (ix1 e) = dv ei (rdRow 50000 N_pos (val_main_v24 (F := Ideal) ei) e) := by
  unfold val_main_v70
  rw [gather_vec_rd N_pos Cert.ReferenceIdeal.gather_S50000_S850000x1_S850000_n_0_n_n_0_1_1 rfl rfl rfl rfl rfl rfl]
  rw [show val_main_v69 (F := Ideal) ei = val_main_v24 (F := Ideal) ei from rfl, show val_main_v56 (F := Ideal) ei = val_main_v11 (F := Ideal) ei from rfl]
  exact v11_at ei _

/-- The per-edge scale, spread over 128 columns, at (e, k): dinv(source) · dinv(destination). -/
theorem v36_at (e : Fin 850000) (k : Fin 128) :
    val_main_v36 (F := Ideal) ei (ix2 e k)
      = dv ei (rdRow 50000 N_pos (srcCol ei) e) * dv ei (rdRow 50000 N_pos (val_main_v24 (F := Ideal) ei) e) := by
  rw [val_main_v36_apply, val_main_v35_apply, val_main_v26_apply]
  have hidx : idx_main_v35 (idx_main_v36 (ix2 e k)) = ix1 e := by
    funext a; match a with | ⟨0, _⟩ => rfl
  rw [hidx, v18_at, v25_at]
  exact Ideal.mulf_def _ _

/-- The same scale as the second layer spreads it over 2 columns, at (e, j). -/
theorem v81_at (e : Fin 850000) (j : Fin 2) :
    val_main_v81 (F := Ideal) ei (ix2 e j)
      = dv ei (rdRow 50000 N_pos (srcCol ei) e) * dv ei (rdRow 50000 N_pos (val_main_v24 (F := Ideal) ei) e) := by
  rw [val_main_v81_apply, val_main_v80_apply]
  have hidx : idx_main_v80 (idx_main_v81 (ix2 e j)) = ix1 e := by
    funext a; match a with | ⟨0, _⟩ => rfl
  rw [hidx, val_main_v71_apply, v63_at, v70_at]
  exact Ideal.mulf_def _ _

/-! ## An edge that lands at n reads dinv at n -/

/-- The destination column at edge e is the destination word of e. -/
theorem dstCol_at (e : Fin 850000) : dstCol ei (ix2 e 0) = val_main_v6 (F := Ideal) ei (ix1 e) := by
  show val_main_v9 (F := Ideal) ei (ix2 e 0) = _
  rw [val_main_v9_apply]
  congr 1
  funext a; match a with | ⟨0, _⟩ => rfl

/-- An edge whose destination word lands at n reads, through the wrapped destination column, row n. -/
theorem cd_of_lands (e : Fin 850000) (n : Fin 50000) (h : landIx 50000 (dstCol ei (ix2 e 0)) = some n) :
    rdRow 50000 N_pos (val_main_v24 (F := Ideal) ei) e = n := by
  rw [dstCol_at] at h
  unfold rdRow
  have h24 : val_main_v24 (F := Ideal) ei (ix2 e 0) = val_main_v6 (F := Ideal) ei (ix1 e) := by
    rw [val_main_v24_apply]
    have hidx : idx_main_v24 (ix2 e 0) = ix1 e := by funext a; match a with | ⟨0, _⟩ => rfl
    rw [hidx, val_main_v23_apply, val_main_v20_apply, val_main_v19_apply, val_main_c_2_apply]
    -- the word is not negative, so the wrap keeps it
    have hnn : 0 ≤ (val_main_v6 (F := Ideal) ei (ix1 e)).toInt := by
      unfold landIx at h
      split at h
      · next hr => exact hr.1
      · exact absurd h (by simp)
    have hslt : IntOp.cmpi .slt (val_main_v6 (F := Ideal) ei (ix1 e)) 0#32 = 0#1 := by
      have hlt : ¬ ((val_main_v6 (F := Ideal) ei (ix1 e)).toInt < 0) := by omega
      simp [IntOp.cmpi, BitVec.slt, hlt]
    rw [hslt]
    exact select_zero _ _
  rw [h24]
  exact clampIx_of_landIx N_pos h

end Cert.Bridge

end
-- ==== Proof.LibReshapeVec.lean ====
/-
  A vector reshaped to a one-column or a one-row matrix, read at an index.

  Reshaping keeps the row-major order, so entry (i, 0) of the column and entry (0, k) of the row are
  entries i and k of the vector. Stated for arbitrary extents and element types.
-/
import Idealize.ShloMosaic.PureOps.Ideal
import Idealize.ShloMosaic.Lib.ValueIdx
import Idealize.ShloMosaic.Lib.Pipeline.Value

noncomputable section

namespace Cert.LibReshape

open Idealize.ShloMosaic Idealize.ShloMosaic.ValueIdx

/-- A vector of n entries as an n × 1 column, at (i, 0): the vector's entry i. -/
theorem shapeCast_col {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i 0) = v (ix1 i) := by
  -- position i · 1 + 0 of the column is position i of the vector
  refine shapeCast_apply v h _ _ ?_
  rw [Shape.rowMajor_val_two, Shape.rowMajor_val_one]
  show i.val = i.val * 1 + 0
  omega

/-- A vector of m entries as a 1 × m row, at (0, k): the vector's entry k. -/
theorem shapeCast_row {α : Type} {m : Nat} (v : (⟨1, ![m]⟩ : Shape).Idx → α)
    (h : (⟨1, ![m]⟩ : Shape).ShapeCasts ⟨2, ![1, m]⟩) (k : Fin m) :
    shapeCast ⟨2, ![1, m]⟩ v h (ix2 0 k) = v (ix1 k) := by
  -- position 0 · m + k of the row is position k of the vector
  refine shapeCast_apply v h _ _ ?_
  rw [Shape.rowMajor_val_two, Shape.rowMajor_val_one]
  show k.val = 0 * m + k.val
  omega

end Cert.LibReshape

end
-- ==== Proof.RefLayer1.lean ====
/-
  The first layer, the reference's grouping against the kernel's.

  Row m of x·W1 is gathered along the edges. The reference scales each gathered row by
  dinv(source) · dinv(destination) and adds it into its destination row; the kernel's first program
  leaves (x·W1) row m already scaled by dinv m, the host adds the gathered rows, and the second
  program scales row n of the sum by dinv n. The two agree entry by entry; adding the bias and clipping
  at zero on both sides gives the same hidden activation.
-/
import proofs.«420345_j67774583930931_2_alg».proof.Proof.RefIndex
import proofs.«420345_j67774583930931_2_alg».proof.Proof.LibReshapeVec

set_option maxRecDepth 16384

noncomputable section

open scoped BigOperators

namespace Cert.Bridge

open Idealize.ShloMosaic Idealize.ShloMosaic.TcCoe Idealize.ShloMosaic.ValueIdx
open Cert.KernelIdeal.Chain Cert.ReferenceIdeal.Read Cert.Spec Cert.Layer

variable (x : FVec Ideal ⟨2, ![50000, 128]⟩ .f32) (ei : IVec ⟨2, ![2, 800000]⟩ 32)
  (W1 : FVec Ideal ⟨2, ![128, 128]⟩ .f32) (b1 : FVec Ideal ⟨1, ![128]⟩ .f32)
  (Y1 : FVec Ideal ⟨2, ![50000, 128]⟩ .f32)

/-- The host's inverse square root of a vector, at an index. -/
theorem hostRsqrt_at {s : Shape} (v : FVec Ideal s .f32) (i : s.Idx) : Host.rsqrt v i = Ideal.rsqrt (v i) := rfl

/-- The dinv column at (n, 0) is node n's scale. -/
theorem dinv2d_at (n : Fin 50000) : dinv2d (F := Ideal) ei (ix2 n 0) = dv ei n := by
  unfold dinv2d dv
  rw [Cert.LibReshape.shapeCast_col, hostRsqrt_at]

/-- x·W1 at (m, k). -/
theorem v27_at (m : Fin 50000) (k : Fin 128) :
    val_main_v27 (F := Ideal) x W1 (ix2 m k) = ∑ i : Fin 128, x (ix2 m i) * W1 (ix2 i k) := by
  rw [val_main_v27_apply]
  refine Finset.sum_congr rfl fun i _ => ?_
  have hl : lidx_main_v27 (ix2 m k) i = ix2 m i := by
    funext a; match a with | ⟨0, _⟩ => rfl | ⟨1, _⟩ => rfl
  have hr : ridx_main_v27 (ix2 m k) i = ix2 i k := by
    funext a; match a with | ⟨0, _⟩ => rfl | ⟨1, _⟩ => rfl
  rw [hl, hr]

/-- The kernel's gather-and-add over the reference's own dimension records. -/
theorem agg128_eq (y : FVec Ideal ⟨2, ![50000, 128]⟩ .f32) :
    agg128 (F := Ideal) y ei
      = Host.scatterAdd (F := Ideal) Cert.ReferenceIdeal.scatter_S50000x128_S850000x1_S850000x128_1_0_0_1 (val_main_v38 (F := Ideal)) (dstCol ei)
          (Host.gather Cert.ReferenceIdeal.gather_S50000x128_S850000x1_S850000x128_1_0_n_n_0_1_1128 y (srcCol ei)) := rfl

/-- The first layer's aggregation: the reference's scaled sum at (n, k) is the kernel's plain sum of
    pre-scaled rows, times node n's scale. -/
theorem v40_at (hY1 : ∀ n j, Y1 (ix2 n j) = lin1 x W1 (dinv2d (F := Ideal) ei) n j) (n : Fin 50000) (k : Fin 128) :
    val_main_v40 (F := Ideal) x ei W1 (ix2 n k) = agg128 (F := Ideal) Y1 ei (ix2 n k) * dv ei n := by
  have hy : ∀ m j, Y1 (ix2 m j) = val_main_v27 (F := Ideal) x W1 (ix2 m j) * dv ei m := by
    intro m j
    rw [hY1, v27_at]
    unfold lin1
    rw [dinv2d_at]
  have key := layer_eq N_pos Cert.ReferenceIdeal.scatter_S50000x128_S850000x1_S850000x128_1_0_0_1 rfl rfl rfl rfl
    Cert.ReferenceIdeal.gather_S50000x128_S850000x1_S850000x128_1_0_n_n_0_1_1128 rfl rfl rfl rfl rfl rfl
    (dstCol ei) (srcCol ei) (val_main_v38 (F := Ideal)) v38_zero
    (val_main_v27 (F := Ideal) x W1) Y1 (val_main_v36 (F := Ideal) ei) (dv ei)
    (fun e => rdRow 50000 N_pos (val_main_v24 (F := Ideal) ei) e) (v36_at ei) (cd_of_lands ei) (dv_fin ei) hy n k
  rw [agg128_eq]
  unfold val_main_v40 val_main_v37 val_main_v34
  rw [show val_main_v39 (F := Ideal) ei = dstCol ei from rfl, show val_main_v33 (F := Ideal) ei = srcCol ei from rfl]
  exact key

/-- The hidden activation: both programs add the bias and clip at zero. -/
theorem v44_at (hrow : (⟨1, ![128]⟩ : Shape).ShapeCasts ⟨2, ![1, 128]⟩)
    (hY1 : ∀ n j, Y1 (ix2 n j) = lin1 x W1 (dinv2d (F := Ideal) ei) n j) (n : Fin 50000) (k : Fin 128) :
    val_main_v44 (F := Ideal) x ei W1 b1 (ix2 n k)
      = hid (agg128 (F := Ideal) Y1 ei) (dinv2d (F := Ideal) ei) (shapeCast ⟨2, ![1, 128]⟩ b1 hrow) n k := by
  rw [val_main_v44_apply, val_main_v43_apply, v40_at x ei W1 Y1 hY1, val_main_v42_apply, val_main_v41_apply,
    val_main_call0_v0_apply, val_main_call0_cst_apply]
  have hidx : idx_main_v41 (idx_main_v42 (ix2 n k)) = ix1 k := by
    funext a; match a with | ⟨0, _⟩ => rfl
  rw [hidx]
  unfold hid
  rw [dinv2d_at, Cert.LibReshape.shapeCast_row]
  show max (_ + _) (Ideal.ofBits .f32 0x00000000#32) = _
  rw [Ideal.ofBits_zero_f32]

end Cert.Bridge

end
-- ==== Proof.RefLayer2.lean ====
/-
  The second layer, the reference's grouping against the kernel's, and the node outputs.

  The hidden activation times W2 is gathered along the same edges. As in the first layer the reference
  scales each gathered row by dinv(source) · dinv(destination); the kernel's second program leaves the
  product's row m already scaled by dinv m, the host adds the gathered rows, and the third program scales
  row n of the sum by dinv n and adds the bias.
-/
import proofs.«420345_j67774583930931_2_alg».proof.Proof.RefLayer1

set_option maxRecDepth 16384

noncomputable section

open scoped BigOperators

namespace Cert.Bridge

open Idealize.ShloMosaic Idealize.ShloMosaic.TcCoe Idealize.ShloMosaic.ValueIdx
open Cert.KernelIdeal.Chain Cert.ReferenceIdeal.Read Cert.Spec Cert.Layer

variable (x : FVec Ideal ⟨2, ![50000, 128]⟩ .f32) (ei : IVec ⟨2, ![2, 800000]⟩ 32)
  (W1 : FVec Ideal ⟨2, ![128, 128]⟩ .f32) (b1 : FVec Ideal ⟨1, ![128]⟩ .f32)
  (W2 : FVec Ideal ⟨2, ![128, 2]⟩ .f32) (b2 : FVec Ideal ⟨1, ![2]⟩ .f32)
  (Y1 : FVec Ideal ⟨2, ![50000, 128]⟩ .f32) (Y2 : FVec Ideal ⟨2, ![50000, 2]⟩ .f32)
  (hrow1 : (⟨1, ![128]⟩ : Shape).ShapeCasts ⟨2, ![1, 128]⟩) (hrow2 : (⟨1, ![2]⟩ : Shape).ShapeCasts ⟨2, ![1, 2]⟩)

/-- The hidden activation times W2, at (m, j). -/
theorem v72_at (hY1 : ∀ n j, Y1 (ix2 n j) = lin1 x W1 (dinv2d (F := Ideal) ei) n j) (m : Fin 50000) (j : Fin 2) :
    val_main_v72 (F := Ideal) x ei W1 b1 W2 (ix2 m j)
      = ∑ k : Fin 128, hid (agg128 (F := Ideal) Y1 ei) (dinv2d (F := Ideal) ei) (shapeCast ⟨2, ![1, 128]⟩ b1 hrow1) m k * W2 (ix2 k j) := by
  rw [val_main_v72_apply]
  refine Finset.sum_congr rfl fun k _ => ?_
  have hl : lidx_main_v72 (ix2 m j) k = ix2 m k := by
    funext a; match a with | ⟨0, _⟩ => rfl | ⟨1, _⟩ => rfl
  have hr : ridx_main_v72 (ix2 m j) k = ix2 k j := by
    funext a; match a with | ⟨0, _⟩ => rfl | ⟨1, _⟩ => rfl
  rw [hl, hr, v44_at x ei W1 b1 Y1 hrow1 hY1]

/-- The kernel's gather-and-add of 2-column rows over the reference's own dimension records. -/
theorem agg2_eq (y : FVec Ideal ⟨2, ![50000, 2]⟩ .f32) :
    agg2 (F := Ideal) y ei
      = Host.scatterAdd (F := Ideal) Cert.ReferenceIdeal.scatter_S50000x2_S850000x1_S850000x2_1_0_0_1 (val_main_v83 (F := Ideal)) (dstCol ei)
          (Host.gather Cert.ReferenceIdeal.gather_S50000x2_S850000x1_S850000x2_1_0_n_n_0_1_12 y (srcCol ei)) := rfl

/-- The second layer's aggregation: the reference's scaled sum at (n, j) is the kernel's plain sum of
    pre-scaled rows, times node n's scale. -/
theorem v85_at (hY1 : ∀ n j, Y1 (ix2 n j) = lin1 x W1 (dinv2d (F := Ideal) ei) n j)
    (hY2 : ∀ n j, Y2 (ix2 n j) = lin2 (agg128 (F := Ideal) Y1 ei) (dinv2d (F := Ideal) ei) (shapeCast ⟨2, ![1, 128]⟩ b1 hrow1) W2 n j)
    (n : Fin 50000) (j : Fin 2) :
    val_main_v85 (F := Ideal) x ei W1 b1 W2 (ix2 n j) = agg2 (F := Ideal) Y2 ei (ix2 n j) * dv ei n := by
  have hy : ∀ m j, Y2 (ix2 m j) = val_main_v72 (F := Ideal) x ei W1 b1 W2 (ix2 m j) * dv ei m := by
    intro m j
    rw [hY2, v72_at x ei W1 b1 W2 Y1 hrow1 hY1]
    unfold lin2
    rw [dinv2d_at]
  have key := layer_eq N_pos Cert.ReferenceIdeal.scatter_S50000x2_S850000x1_S850000x2_1_0_0_1 rfl rfl rfl rfl
    Cert.ReferenceIdeal.gather_S50000x2_S850000x1_S850000x2_1_0_n_n_0_1_12 rfl rfl rfl rfl rfl rfl
    (dstCol ei) (srcCol ei) (val_main_v83 (F := Ideal)) v83_zero
    (val_main_v72 (F := Ideal) x ei W1 b1 W2) Y2 (val_main_v81 (F := Ideal) ei) (dv ei)
    (fun e => rdRow 50000 N_pos (val_main_v24 (F := Ideal) ei) e) (v81_at ei) (cd_of_lands ei) (dv_fin ei) hy n j
  rw [agg2_eq]
  unfold val_main_v85 val_main_v82 val_main_v79
  rw [show val_main_v84 (F := Ideal) ei = dstCol ei from rfl, show val_main_v78 (F := Ideal) ei = srcCol ei from rfl]
  exact key

/-- The node outputs: both programs add the second bias. -/
theorem v88_at (hY1 : ∀ n j, Y1 (ix2 n j) = lin1 x W1 (dinv2d (F := Ideal) ei) n j)
    (hY2 : ∀ n j, Y2 (ix2 n j) = lin2 (agg128 (F := Ideal) Y1 ei) (dinv2d (F := Ideal) ei) (shapeCast ⟨2, ![1, 128]⟩ b1 hrow1) W2 n j)
    (n : Fin 50000) (j : Fin 2) :
    val_main_v88 (F := Ideal) x ei W1 b1 W2 b2 (ix2 n j)
      = agg2 (F := Ideal) Y2 ei (ix2 n j) * dinv2d (F := Ideal) ei (ix2 n 0) + shapeCast ⟨2, ![1, 2]⟩ b2 hrow2 (ix2 0 j) := by
  rw [val_main_v88_apply, v85_at x ei W1 b1 W2 Y1 Y2 hrow1 hY1 hY2, val_main_v87_apply, val_main_v86_apply]
  have hidx : idx_main_v86 (idx_main_v87 (ix2 n j)) = ix1 j := by
    funext a; match a with | ⟨0, _⟩ => rfl
  rw [hidx, dinv2d_at, Cert.LibReshape.shapeCast_row]
  exact Ideal.addf_def _ _

end Cert.Bridge

end
-- ==== Proof.PoolBridge.lean ====
/-
  The per-graph sums, in the two forms the two programs use.

  One program adds row i of a 50000 × 2 table into row batch[i] of a 64 × 2 table of zeros, the word
  batch[i] read signed and the row dropped when it is outside [0, 64). The other sums, for graph g, the
  rows whose batch word IS the word of g. For g < 64 the word lands at g exactly when it is the word
  of g, so the two sums have the same terms.
-/
import proofs.«420345_j67774583930931_2_alg».proof.Proof.Spec
import proofs.«420345_j67774583930931_2_alg».proof.Proof.LibGatherScatterRows
import proofs.«420345_j67774583930931_2_alg».proof.Proof.LibReshapeVec
import proofs.«420345_j67774583930931_2_alg».proof.Proof.Gen.ReferenceIdeal.Read

set_option maxRecDepth 16384

noncomputable section

open scoped BigOperators

namespace Cert.Bridge

open Idealize.ShloMosaic Idealize.ShloMosaic.TcCoe Idealize.ShloMosaic.ValueIdx
open Cert.ReferenceIdeal.Read Cert.Spec

/-- For g < 64 a word, read signed, lands at row g of a 64-row table exactly when it is the word of g:
    a word in [0, 64) reads the same signed and unsigned, and g's word is g itself. -/
theorem landIx_eq_some_iff (w : BitVec 32) (g : Fin 64) :
    landIx 64 w = some g ↔ w = BitVec.ofNat 32 g.val := by
  have hc := BitVec.toInt_eq_toNat_cond w
  have hw : w.toNat < 2 ^ 32 := w.isLt
  have hg : g.val < 64 := g.isLt
  unfold landIx
  constructor
  · intro h
    split at h
    · next hr =>
      have hv : w.toInt.toNat = g.val := congrArg Fin.val (Option.some.inj h)
      apply BitVec.eq_of_toNat_eq
      rw [BitVec.toNat_ofNat]
      split at hc <;> omega
    · exact absurd h (by simp)
  · intro h
    have hn : w.toNat = g.val := by rw [h, BitVec.toNat_ofNat]; omega
    have ht : w.toInt = (g.val : Int) := by split at hc <;> omega
    rw [dif_pos ⟨by omega, by omega⟩]
    exact congrArg some (Fin.ext (by show w.toInt.toNat = g.val; omega))

/-- The batch words spread to a column, at (i, 0): the word of row i. -/
theorem batchCol_apply (bt : IVec ⟨1, ![50000]⟩ 32) (i : Fin 50000) :
    val_main_v90 (F := Ideal) bt (ix2 i 0) = bt (ix1 i) := by
  rw [val_main_v90_apply]
  congr 1
  funext a
  match a with
  | ⟨0, _⟩ => rfl

/-- The table the rows are added into is zero everywhere. -/
theorem zeros_apply (g : Fin 64) (j : Fin 2) : val_main_v89 (F := Ideal) (ix2 g j) = (0 : EReal) := by
  rw [val_main_v89_apply, val_main_cst_16_apply]
  exact Ideal.ofBits_zero_f32

/-- The rows of `u` added by their batch words, at (g, j), is the sum over the rows whose batch word is
    the word of g of the row's entry j. -/
theorem pool_bridge (bt : IVec ⟨1, ![50000]⟩ 32) (a : A2 50000 2) (dvc : A2 50000 1) (brow : A2 1 2)
    (u : FVec Ideal ⟨2, ![50000, 2]⟩ .f32) (hcol : (⟨1, ![50000]⟩ : Shape).ShapeCasts ⟨2, ![50000, 1]⟩)
    (hu : ∀ (i : Fin 50000) (j : Fin 2), u (ix2 i j) = a (ix2 i j) * dvc (ix2 i 0) + brow (ix2 0 j)) (g : Fin 64) (j : Fin 2) :
    Host.scatterAdd (F := Ideal) Cert.ReferenceIdeal.scatter_S64x2_S50000x1_S50000x2_1_0_0_1 (val_main_v89 (F := Ideal)) (val_main_v90 (F := Ideal) bt) u (ix2 g j)
      = Cert.Spec.pool a dvc brow (shapeCast ⟨2, ![50000, 1]⟩ bt hcol) g j := by
  -- the scatter at (g, j): the zero there plus the rows whose word lands at g
  rw [Cert.LibRows.scatterAdd_rows' Cert.ReferenceIdeal.scatter_S64x2_S50000x1_S50000x2_1_0_0_1 rfl rfl rfl rfl,
    zeros_apply, zero_add, Finset.sum_filter]
  unfold Cert.Spec.pool
  -- term by term: the same word on both sides, and it lands at g exactly when it is g's word
  refine Finset.sum_congr rfl fun i _ => ?_
  rw [batchCol_apply, Cert.LibReshape.shapeCast_col bt hcol i, hu i j]
  by_cases h : bt (ix1 i) = BitVec.ofNat 32 g.val
  · rw [if_pos h, if_pos ((landIx_eq_some_iff _ g).2 h)]
  · rw [if_neg h, if_neg (fun h' => h ((landIx_eq_some_iff _ g).1 h'))]

end Cert.Bridge

end
-- ==== Proof.Bridge.lean ====
/-
  The two programs' results are one array.

  Both end by dividing each graph's sum of node outputs by the graph's node count (at least one); the
  counts are the same expression of the batch words on both sides. The sums agree entry by entry: the
  second layer's node outputs agree (the aggregation law of the layer, the same hidden activation, the
  same bias), and a row is added to graph g's sum by one program exactly when the other's one-hot
  membership selects it.
-/
import proofs.«420345_j67774583930931_2_alg».proof.Proof.RefLayer2
import proofs.«420345_j67774583930931_2_alg».proof.Proof.PoolBridge

set_option maxRecDepth 16384

noncomputable section

open scoped BigOperators

namespace Cert.Bridge

open Idealize.ShloMosaic Idealize.ShloMosaic.TcCoe Idealize.ShloMosaic.ValueIdx
open Cert.KernelIdeal.Chain Cert.ReferenceIdeal.Read Cert.Spec Cert.Layer

/-- Given what the three kernels leave (entry by entry, over the host's aggregations of what the kernels
    before left), the kernel program's result is the reference's. -/
theorem bridge (x : FVec Ideal ⟨2, ![50000, 128]⟩ .f32) (ei : IVec ⟨2, ![2, 800000]⟩ 32) (bt : IVec ⟨1, ![50000]⟩ 32)
    (W1 : FVec Ideal ⟨2, ![128, 128]⟩ .f32) (b1 : FVec Ideal ⟨1, ![128]⟩ .f32)
    (W2 : FVec Ideal ⟨2, ![128, 2]⟩ .f32) (b2 : FVec Ideal ⟨1, ![2]⟩ .f32)
    (Y1 : FVec Ideal ⟨2, ![50000, 128]⟩ .f32) (Y2 : FVec Ideal ⟨2, ![50000, 2]⟩ .f32) (Y3 : FVec Ideal ⟨2, ![64, 2]⟩ .f32)
    (hrow1 : (⟨1, ![128]⟩ : Shape).ShapeCasts ⟨2, ![1, 128]⟩) (hrow2 : (⟨1, ![2]⟩ : Shape).ShapeCasts ⟨2, ![1, 2]⟩)
    (hcol : (⟨1, ![50000]⟩ : Shape).ShapeCasts ⟨2, ![50000, 1]⟩)
    (h1 : ∀ n j, Y1 (ix2 n j) = lin1 x W1 (dinv2d (F := Ideal) ei) n j)
    (h2 : ∀ n j, Y2 (ix2 n j) = lin2 (agg128 (F := Ideal) Y1 ei) (dinv2d (F := Ideal) ei) (shapeCast ⟨2, ![1, 128]⟩ b1 hrow1) W2 n j)
    (h3 : ∀ g j, Y3 (ix2 g j) = pool (agg2 (F := Ideal) Y2 ei) (dinv2d (F := Ideal) ei) (shapeCast ⟨2, ![1, 2]⟩ b2 hrow2)
      (shapeCast ⟨2, ![50000, 1]⟩ bt hcol) g j) :
    val_main_v100 (F := Ideal) x ei bt W1 b1 W2 b2 = fin (F := Ideal) Y3 bt := by
  -- the per-graph sums agree entry by entry
  have hs : val_main_v91 (F := Ideal) x ei bt W1 b1 W2 b2 = Y3 := by
    funext i
    obtain ⟨g, j, rfl⟩ : ∃ (g : Fin 64) (j : Fin 2), i = ix2 g j := ⟨i 0, i 1, eq_ix2 i⟩
    rw [h3 g j]
    unfold val_main_v91
    exact pool_bridge bt (agg2 (F := Ideal) Y2 ei) (dinv2d (F := Ideal) ei) (shapeCast ⟨2, ![1, 2]⟩ b2 hrow2)
      (val_main_v88 (F := Ideal) x ei W1 b1 W2 b2) hcol
      (fun i j => v88_at x ei W1 b1 W2 b2 Y1 Y2 hrow1 hrow2 h1 h2 i j) g j
  -- and both divide by the same counts
  unfold val_main_v100 fin
  rw [hs, show den (F := Ideal) bt = val_main_v99 (F := Ideal) bt from rfl]

end Cert.Bridge

end
-- ==== Proof.lean ====
/-
  A two-layer graph convolution with mean pooling, computed two ways, gives one result over the extended reals.

  With deg n the number of edges (one self-loop per node included) that land at node n and
  dinv n = (deg n)^(-1/2), a layer sends features h to
      out n j = Σ_{e lands at n} h (src e) j · (dinv (src e) · dinv n) + b j.
  The reference scales each edge's gathered row by dinv (src e) · dinv n and then adds it into its
  destination's row. The kernels scale every row by its own dinv once, before the gather, and scale each
  node's sum by dinv n after it. The two agree because the destination's factor dinv n is the same in
  every term of a node's sum and is a finite non-negative real wherever that sum has a term at all, so it
  comes out of the sum. The first layer's output is clipped at zero; the second's is summed per graph and
  divided by the graph's node count (at least one). The reference adds node rows into their graph's row by
  a row scatter on the batch words; the kernels multiply the one-hot membership matrix of the batch words,
  transposed, with the node rows, which adds the same rows.

  Below: each program runs and leaves its arguments unchanged; and from memories that agree on the
  arguments the two results are equal entry by entry.
-/
import proofs.«420345_j67774583930931_2_alg».proof.Defs
import proofs.«420345_j67774583930931_2_alg».proof.Proof.Gen.Kernel
import proofs.«420345_j67774583930931_2_alg».proof.Proof.Gen.Kernel.Skeleton
import proofs.«420345_j67774583930931_2_alg».proof.Proof.Gen.Kernel.Launch
import proofs.«420345_j67774583930931_2_alg».proof.Proof.Gen.Kernel.Points
import proofs.«420345_j67774583930931_2_alg».proof.Proof.Gen.Kernel.Frame
import proofs.«420345_j67774583930931_2_alg».proof.Proof.Gen.KernelIdeal
import proofs.«420345_j67774583930931_2_alg».proof.Proof.Gen.KernelIdeal.Skeleton
import proofs.«420345_j67774583930931_2_alg».proof.Proof.Gen.KernelIdeal.Launch
import proofs.«420345_j67774583930931_2_alg».proof.Proof.Gen.KernelIdeal.Points
import proofs.«420345_j67774583930931_2_alg».proof.Proof.Gen.KernelIdeal.Frame
import proofs.«420345_j67774583930931_2_alg».proof.Proof.Gen.ReferenceIdeal
import proofs.«420345_j67774583930931_2_alg».proof.Proof.Gen.Pre_finite_inputs
import proofs.«420345_j67774583930931_2_alg».proof.Proof.Gen.ReferenceIdeal.Run
import proofs.«420345_j67774583930931_2_alg».proof.Proof.Gen.ReferenceIdeal.Read
import proofs.«420345_j67774583930931_2_alg».proof.Proof.KernelRun
import proofs.«420345_j67774583930931_2_alg».proof.Proof.KernelChain
import proofs.«420345_j67774583930931_2_alg».proof.Proof.RegionValue01
import proofs.«420345_j67774583930931_2_alg».proof.Proof.Region2Value
import proofs.«420345_j67774583930931_2_alg».proof.Proof.Bridge
import Idealize.ShloMosaic.Adequacy
import Idealize.ShloMosaic.Init

set_option maxRecDepth 16384

noncomputable section

namespace Cert.Proof.GcnClaims

open Idealize.ShloMosaic Idealize.ShloMosaic.TcCoe Idealize.ShloMosaic.ValueIdx Idealize.SL.Sem
open Cert.KernelIdeal.Gen Cert.KernelIdeal.Chain Cert.KernelIdeal.RegionValue

/-! ## Each program runs and keeps its arguments -/

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal program is the kernel program's own text read over the extended reals: nothing was rewritten. -/
theorem preserves : Cert.preserves_Kernel_KernelIdeal := trivial

/-! ## The two results are one array -/

/-- The reference's result term of the kernel program's arguments is what the kernel program's last host
    stretch leaves in its result buffer: the three kernels' arrays are the three layer functions of what
    they are entered with, and those are the host's aggregations of the arrays before. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = W7 m ρ c (Proc.devRef .tc Cert.KernelIdeal.main_v47) := by
  rw [W7_v47]
  refine Cert.Bridge.bridge _ _ _ _ _ _ _
    ((Cert.KernelIdeal.Gen.dat0 (F := Ideal) (V1 m ρ) c).arrAt 3 Cert.KernelIdeal.cfg0.N) ((Cert.KernelIdeal.Gen.dat1 (F := Ideal) (V3 m ρ) c).arrAt 4 Cert.KernelIdeal.cfg1.N)
    ((Cert.KernelIdeal.Gen.dat2 (F := Ideal) (V5 m ρ) c).arrAt 4 Cert.KernelIdeal.cfg2.N)
    Cert.KernelIdeal.Facts₀.shapeCasts_S128_S1x128 Cert.KernelIdeal.Facts₀.shapeCasts_S2_S1x2 Cert.KernelIdeal.Facts₀.shapeCasts_S50000_S50000x1 ?_ ?_ ?_
  · intro n j
    refine (region0_value (V1 m ρ) c n j).trans ?_
    rw [V1_arg0, V1_arg3, V1_v12]
  · intro n j
    refine (region1_value (V3 m ρ) c n j).trans ?_
    rw [V3_v26, V3_v12, V3_v13, V3_arg5]
  · intro g j
    refine (region2_value (V5 m ρ) c g j).trans ?_
    rw [V5_v37, V5_v12, V5_v14, V5_v15]

/-- From memories that agree on the seven arguments both programs run, keep their arguments, and end with
    equal results. -/
theorem algebraic : Cert.algebraic_KernelIdeal_ReferenceIdeal := by
  intro m ρ m' ρ' _ hagree
  refine ⟨fun c => W7 m ρ c (Proc.devRef .tc Cert.KernelIdeal.main_v47), Cert.KernelIdeal.RunValue.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v100_eq, a0, a1, a2, a3, a4, a5, a6]
  exact result_eq m ρ c

end Cert.Proof.GcnClaims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_p, GcnClaims.frame_pi, GcnClaims.frame_ri, GcnClaims.preserves, GcnClaims.algebraic⟩

end Cert.Proof

end
